-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000x128 : Shape := ⟨2, ![800000, 128]⟩
abbrev S800000 : Shape := ⟨1, ![800000]⟩
abbrev S64x64 : Shape := ⟨2, ![64, 64]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg2 main_v54
  let main_c_21 : IVec S_ 1 := constantI S_ 1 1#1
  let main_v56 : IVec S_ 1 := (fun x v => Host.reduce IntOp.andi x v reducesTo_S800000_S_d0 h_S_) main_v55 main_c_21
  let main_v57 : IVec S_ 1 := andi main_v53 main_v56
  let main_c_22 : IVec S_ 32 := constantI S_ 32 100000#32
  let main_v58 : IVec S800000 32 := broadcastInDim S800000 ![] bcast_S_S800000 main_c_22
  let main_v59 : IVec S800000 1 := cmpi .slt main_arg2 main_v58
  let main_c_23 : IVec S_ 1 := constantI S_ 1 1#1
  let main_v60 : IVec S_ 1 := (fun x v => Host.reduce IntOp.andi x v reducesTo_S800000_S_d0 h_S_) main_v59 main_c_23
  let main_v61 : IVec S_ 1 := andi main_v57 main_v60
  main_v61

def fn_part2 {F : FTy → Type} [FloatOps F] (main_arg2 : IVec S800000 32) (main_arg9 : FVec F S64x64 .f32) (main_arg10 : FVec F S64 .f32) (main_arg11 : FVec F S64x64 .f32) (main_arg12 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg2 main_v48 main_v49 main_v50

def fn_part1 {F : FTy → Type} [FloatOps F] (main_arg2 : IVec S800000 32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_v33

def fn {F : FTy → Type} [FloatOps F] (main_arg0 : FVec F S100000x64 .f32) (main_arg1 : FVec F S800000x128 .f32) (main_arg2 : IVec S800000 32) (main_arg3 : IVec S800000 32) (main_arg4 : FVec F S64x64 .f32) (main_arg5 : FVec F S64x128 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg2 main_arg6 main_arg7 main_arg8 main_arg9 main_arg10 main_arg11 main_arg12 main_v13 main_v16
-- ==== Kernel.lean ====
abbrev S100000x64 : Shape := ⟨2, ![100000, 64]⟩
abbrev S800000x128 : Shape := ⟨2, ![800000, 128]⟩
abbrev S800000 : Shape := ⟨1, ![800000]⟩
abbrev S64x64 : Shape := ⟨2, ![64, 64]⟩
abbrev S64x128 : Shape := ⟨2, ![64, 128]⟩
abbrev S64 : Shape := ⟨1, ![64]⟩
abbrev S128x64 : Shape := ⟨2, ![128, 64]⟩
abbrev S1x64 : Shape := ⟨2, ![1, 64]⟩
abbrev S10000x64 : Shape := ⟨2, ![10000, 64]⟩
abbrev S800000x64 : Shape := ⟨2, ![800000, 64]⟩
abbrev S16000x128 : Shape := ⟨2, ![16000, 128]⟩
abbrev S16000x64 : Shape := ⟨2, ![16000, 64]⟩
abbrev S_ : Shape := ⟨0, ![]⟩
abbrev S800000x1 : Shape := ⟨2, ![800000, 1]⟩
abbrev S1 : Shape := ⟨1, ![1]⟩
abbrev S1x1 : Shape := ⟨2, ![1, 1]⟩

abbrev nBuf : Space → Nat
  | .hbm => 53
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S128x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S100000x64, .f32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S1, .i32⟩
  | .hbm, ⟨33, _⟩ => ⟨S_, .i32⟩
  | .hbm, ⟨34, _⟩ => ⟨S800000x1, .i32⟩
  | .hbm, ⟨35, _⟩ => ⟨S800000x1, .i1⟩
  | .hbm, ⟨36, _⟩ => ⟨S1x1, .i32⟩
  | .hbm, ⟨37, _⟩ => ⟨S800000x1, .i32⟩
  | .hbm, ⟨38, _⟩ => ⟨S800000x1, .i1⟩
  | .hbm, ⟨39, _⟩ => ⟨S800000x1, .i1⟩
  | .hbm, ⟨40, _⟩ => ⟨S_, .i1⟩
  | .hbm, ⟨41, _⟩ => ⟨S800000, .i1⟩
  | .hbm, ⟨42, _⟩ => ⟨S800000x64, .f32⟩
  | .hbm, ⟨43, _⟩ => ⟨S800000x64, .i1⟩
  | .hbm, ⟨44, _⟩ => ⟨S_, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S100000x64, .f32⟩
  | .hbm, ⟨50, _⟩ => ⟨S800000x1, .i32⟩
  | .hbm, ⟨51, _⟩ => ⟨S100000x64, .f32⟩
  | .hbm, ⟨52, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S16000x128, .f32⟩
  | .local _ .vmem, ⟨6, _⟩ => ⟨S16000x128, .f32⟩
  | .local _ .vmem, ⟨7, _⟩ => ⟨S128x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S16000x64, .f32⟩
  | .local _ .vmem, ⟨12, _⟩ => ⟨S16000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v11 : Ref sig .tc := ⟨.hbm, 46, rfl⟩
abbrev main_v12 : Ref sig .tc := ⟨.hbm, 47, rfl⟩
abbrev main_cst : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S64x64_S64x64_1_0 : S64x64.Transposes [1, 0] S64x64
  transposes_S64x128_S128x64_1_0 : S64x128.Transposes [1, 0] S128x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16000x128_S16000x128_0_0 : ∀ a, (![0, 0] : Fin 2 → Nat) a + S16000x128.size a ≤ S16000x128.size a
  h_S16000x128 : 0 < S16000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S100000x64 : S_.BroadcastsInDim S100000x64 (![] : Fin 0 → Fin S100000x64.rank)
  shapeCasts_S10000x64_S10000x64 : S10000x64.ShapeCasts S10000x64
  broadcasts_S1x64_S10000x64 : S1x64.Broadcasts S10000x64
  dot_S10000x64_S64x64_S10000x64_1_0_0_1_n_n_wf : DotDims.WF S10000x64 S64x64 S10000x64 [1] [0] [0] [1] [] []
  dot_S16000x128_S128x64_S16000x64_1_0_0_1_n_n_wf : DotDims.WF S16000x128 S128x64 S16000x64 [1] [0] [0] [1] [] []
  dot_S16000x64_S64x64_S16000x64_1_0_0_1_n_n_wf : DotDims.WF S16000x64 S64x64 S16000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S800000x128.size a
  hwx1_0 : ∀ i : grid1.Coords, EltTy.bits .f32 = 32 ∨ (Rect.block (s := S800000x128) S16000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x64.size a ≤ S800000x64.size a
  hwx1_5 : ∀ i : grid1.Coords, EltTy.bits .f32 = 32 ∨ (Rect.block (s := S800000x64) S16000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S16000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S800000x128 : Shape := ⟨2, ![800000, 128]⟩
abbrev S800000 : Shape := ⟨1, ![800000]⟩
abbrev S64x64 : Shape := ⟨2, ![64, 64]⟩
abbrev S64x128 : Shape := ⟨2, ![64, 128]⟩
abbrev S64 : Shape := ⟨1, ![64]⟩
abbrev S128x64 : Shape := ⟨2, ![128, 64]⟩
abbrev S800000x64 : Shape := ⟨2, ![800000, 64]⟩
abbrev S1x64 : Shape := ⟨2, ![1, 64]⟩
abbrev S_ : Shape := ⟨0, ![]⟩
abbrev S800000x1 : Shape := ⟨2, ![800000, 1]⟩

abbrev nBuf : Space → Nat
  | .hbm => 218
  | .vmem => 0
  | .smem => 0
  | _ => 0

abbrev hbmTy0_0 (i : Nat) : BufTy := match i % 128 with
  | 0 => ⟨S100000x64, .f32⟩
  | 1 => ⟨S800000x128, .f32⟩
  | 2 => ⟨S800000, .i32⟩
  | 3 => ⟨S800000, .i32⟩
  | 4 => ⟨S64x64, .f32⟩
  | 5 => ⟨S64x128, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S100000x64, .f32⟩
  | 15 => ⟨S128x64, .f32⟩
  | 16 => ⟨S800000x64, .f32⟩
  | 17 => ⟨S1x64, .f32⟩
  | 18 => ⟨S800000x64, .f32⟩
  | 19 => ⟨S800000x64, .f32⟩
  | 20 => ⟨S_, .f32⟩
  | 21 => ⟨S800000x64, .f32⟩
  | 22 => ⟨S800000x64, .f32⟩
  | 23 => ⟨S_, .f32⟩
  | 24 => ⟨S800000x64, .f32⟩
  | 25 => ⟨S800000x64, .i1⟩
  | 26 => ⟨S_, .f32⟩
  | 27 => ⟨S800000x64, .f32⟩
  | 28 => ⟨S800000x64, .f32⟩
  | 29 => ⟨S_, .f32⟩
  | 30 => ⟨S800000x64, .f32⟩
  | 31 => ⟨S800000x64, .f32⟩
  | 32 => ⟨S800000x64, .f32⟩
  | 33 => ⟨S800000x64, .f32⟩
  | 34 => ⟨S800000x64, .i1⟩
  | 35 => ⟨S800000x64, .f32⟩
  | 36 => ⟨S800000x64, .f32⟩
  | 37 => ⟨S800000x64, .f32⟩
  | 38 => ⟨S800000x64, .f32⟩
  | 39 => ⟨S800000x64, .f32⟩
  | 40 => ⟨S800000x64, .f32⟩
  | 41 => ⟨S800000x64, .f32⟩
  | 42 => ⟨S800000x64, .f32⟩
  | 43 => ⟨S_, .f32⟩
  | 44 => ⟨S800000x64, .f32⟩
  | 45 => ⟨S800000x64, .f32⟩
  | 46 => ⟨S800000x64, .f32⟩
  | 47 => ⟨S64x64, .f32⟩
  | 48 => ⟨S800000x64, .f32⟩
  | 49 => ⟨S1x64, .f32⟩
  | 50 => ⟨S800000x64, .f32⟩
  | 51 => ⟨S800000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x64, .f32⟩
  | 62 => ⟨S_, .f32⟩
  | 63 => ⟨S100000x64, .f32⟩
  | 64 => ⟨S800000x1, .i32⟩
  | 65 => ⟨S100000x64, .f32⟩
  | 66 => ⟨S64x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .f32⟩
  | 75 => ⟨S100000x64, .f32⟩
  | 76 => ⟨S100000x64, .i1⟩
  | 77 => ⟨S_, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S100000x64, .i1⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S64x64, .f32⟩
  | 99 => ⟨S100000x64, .f32⟩
  | 100 => ⟨S100000x64, .f32⟩
  | 101 => ⟨S_, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S64x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S_, .f32⟩
  | 116 => ⟨S100000x64, .f32⟩
  | 117 => ⟨S100000x64, .i1⟩
  | 118 => ⟨S_, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S100000x64, .f32⟩
  | 126 => ⟨S100000x64, .i1⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S100000x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x64, .f32⟩
  | 11 => ⟨S64x64, .f32⟩
  | 12 => ⟨S100000x64, .f32⟩
  | 13 => ⟨S1x64, .f32⟩
  | 14 => ⟨S100000x64, .f32⟩
  | 15 => ⟨S100000x64, .f32⟩
  | 16 => ⟨S64x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S_, .f32⟩
  | 25 => ⟨S100000x64, .f32⟩
  | 26 => ⟨S100000x64, .i1⟩
  | 27 => ⟨S_, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S100000x64, .f32⟩
  | 35 => ⟨S100000x64, .i1⟩
  | 36 => ⟨S100000x64, .f32⟩
  | 37 => ⟨S100000x64, .f32⟩
  | 38 => ⟨S100000x64, .f32⟩
  | 39 => ⟨S100000x64, .f32⟩
  | 40 => ⟨S100000x64, .f32⟩
  | 41 => ⟨S100000x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S100000x64, .f32⟩
  | 48 => ⟨S64x64, .f32⟩
  | 49 => ⟨S100000x64, .f32⟩
  | 50 => ⟨S100000x64, .f32⟩
  | 51 => ⟨S100000x64, .f32⟩
  | 52 => ⟨S64x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S_, .f32⟩
  | 61 => ⟨S100000x64, .f32⟩
  | 62 => ⟨S100000x64, .i1⟩
  | 63 => ⟨S_, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S100000x64, .f32⟩
  | 71 => ⟨S100000x64, .i1⟩
  | 72 => ⟨S100000x64, .f32⟩
  | 73 => ⟨S100000x64, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S64x64, .f32⟩
  | 85 => ⟨S100000x64, .f32⟩
  | 86 => ⟨S1x64, .f32⟩
  | 87 => ⟨S100000x64, .f32⟩
  | 88 => ⟨S100000x64, .f32⟩
  | 89 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_v86 : Ref sig .tc := ⟨.hbm, 114, rfl⟩
abbrev main_cst_13 : Ref sig .tc := ⟨.hbm, 115, rfl⟩
abbrev main_v87 : Ref sig .tc := ⟨.hbm, 116, rfl⟩
abbrev main_v88 : Ref sig .tc := ⟨.hbm, 117, rfl⟩
abbrev main_cst_14 : Ref sig .tc := ⟨.hbm, 118, rfl⟩
abbrev main_v89 : Ref sig .tc := ⟨.hbm, 119, rfl⟩
abbrev main_v90 : Ref sig .tc := ⟨.hbm, 120, rfl⟩
abbrev main_cst_15 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_16 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_17 : Ref sig .tc := ⟨.hbm, 149, rfl⟩
abbrev main_v117 : Ref sig .tc := ⟨.hbm, 150, rfl⟩
abbrev main_v118 : Ref sig .tc := ⟨.hbm, 151, rfl⟩
abbrev main_cst_18 : Ref sig .tc := ⟨.hbm, 152, rfl⟩
abbrev main_v119 : Ref sig .tc := ⟨.hbm, 153, rfl⟩
abbrev main_v120 : Ref sig .tc := ⟨.hbm, 154, rfl⟩
abbrev main_cst_19 : Ref sig .tc := ⟨.hbm, 155, rfl⟩
abbrev main_v121 : Ref sig .tc := ⟨.hbm, 156, rfl⟩
abbrev main_v122 : Ref sig .tc := ⟨.hbm, 157, rfl⟩
abbrev main_cst_20 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_21 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_22 : Ref sig .tc := ⟨.hbm, 185, rfl⟩
abbrev main_v148 : Ref sig .tc := ⟨.hbm, 186, rfl⟩
abbrev main_v149 : Ref sig .tc := ⟨.hbm, 187, rfl⟩
abbrev main_cst_23 : Ref sig .tc := ⟨.hbm, 188, rfl⟩
abbrev main_v150 : Ref sig .tc := ⟨.hbm, 189, rfl⟩
abbrev main_v151 : Ref sig .tc := ⟨.hbm, 190, rfl⟩
abbrev main_cst_24 : Ref sig .tc := ⟨.hbm, 191, rfl⟩
abbrev main_v152 : Ref sig .tc := ⟨.hbm, 192, rfl⟩
abbrev main_v153 : Ref sig .tc := ⟨.hbm, 193, rfl⟩
abbrev main_cst_25 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_26 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩

abbrev nD : Nat := 1
abbrev τ : Topo := Topo.v7x

variable {F : FTy → Type} [FloatOps F]

class Facts₀ : Prop where
  transposes_S64x64_S64x64_1_0 : S64x64.Transposes [1, 0] S64x64
  transposes_S64x128_S128x64_1_0 : S64x128.Transposes [1, 0] S128x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  bcast_S_S64 : S_.BroadcastsInDim S64 (![] : Fin 0 → Fin S64.rank)
  dot_S100000x64_S64x64_S100000x64_1_0_0_1_n_n_wf : DotDims.WF S100000x64 S64x64 S100000x64 [1] [0] [0] [1] [] []
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.KernelHost.lean ====
/-
  The kernel program's host operations, one stretch at a time, over ANY buffer contents.

  Before the first pallas_call the host transposes the five weights and reshapes the four bias vectors to 1 × 64 rows.
  Between the second and the third call it takes the rows of the transformed node features at the source indices (a
  negative index is counted from the end; a row whose index falls outside [0, 99999] is filled with the not-a-number
  word; otherwise the gather's row), multiplies by the edge filter, and sums the products at the destination indices
  into an array of zeros. Each of these buffers is stated as a function of the buffers the stretch reads, whatever the
  other buffers hold; a buffer that no operation of a stretch writes keeps its contents.
-/
import proofs.«417610_j16449724744296_1_alg».proof.Proof.Gen.KernelIdeal.Launch
import Idealize.ShloMosaic.Lib.StableHlo.Run
import Idealize.ShloMosaic.PureOps.Ideal

set_option maxRecDepth 16384

noncomputable section

namespace Cert.KernelHost

open Cert.KernelIdeal Cert.KernelIdeal.Gen Idealize.ShloMosaic Idealize.ShloMosaic.TcCoe Idealize.SL.Sem

/-- A 64 × 64 weight, transposed. -/
abbrev wT64 (w : FVec Ideal S64x64 .f32) : FVec Ideal S64x64 .f32 := transpose S64x64 [1, 0] w transposes_S64x64_S64x64_1_0
/-- The 64 × 128 weight of the filter's first layer, transposed to 128 × 64. -/
abbrev wT128 (w : FVec Ideal S64x128 .f32) : FVec Ideal S128x64 .f32 := transpose S128x64 [1, 0] w transposes_S64x128_S128x64_1_0
/-- A bias vector reshaped to a 1 × 64 row. -/
abbrev brow (b : FVec Ideal S64 .f32) : FVec Ideal S1x64 .f32 := shapeCast S1x64 b shapeCasts_S64_S1x64

/-- The source indices as the gather takes them: a negative index counted from the end, one index per row. -/
def srcIdx (a2 : IVec S800000 32) : IVec S800000x1 32 :=
  broadcastInDim S800000x1 ![0] bcast_S800000_S800000x1_0
    (select (cmpi .slt a2 (broadcastInDim S800000 ![] bcast_S_S800000 (constantI S_ 32 0#32)))
      (addi a2 (broadcastInDim S800000 ![] bcast_S_S800000 (constantI S_ 32 100000#32))) a2)

/-- Per row of a column of indices: is the index inside [0, 99999]? -/
def maskOf (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- Per edge: is its (wrapped) source index inside [0, 99999]? -/
def inRange (a2 : IVec S800000 32) : IVec S800000 1 := maskOf (srcIdx a2)

/-- The rows of nn at the source indices, the not-a-number word in the rows whose index is out of range. -/
def takeRows (nn : FVec Ideal S100000x64 .f32) (a2 : IVec S800000 32) : FVec Ideal S800000x64 .f32 :=
  select (broadcastInDim S800000x64 ![0] bcast_S800000_S800000x64_0 (inRange a2))
    (Host.gather gather_S100000x64_S800000x1_S800000x64_1_0_n_n_0_1_164 nn (srcIdx a2))
    (broadcastInDim S800000x64 ![] bcast_S_S800000x64 (constant (F := Ideal) S_ .f32 0x7FC00000#32))

/-- The messages msg summed at their destinations into zeros. -/
def sumAt (msg : FVec Ideal S800000x64 .f32) (a3 : IVec S800000 32) : FVec Ideal S100000x64 .f32 :=
  Host.scatterAdd scatter_S100000x64_S800000x1_S800000x64_1_0_0_1
    (broadcastInDim S100000x64 ![] bcast_S_S100000x64 (constant S_ .f32 0x00000000#32))
    (broadcastInDim S800000x1 ![0] bcast_S800000_S800000x1_0 a3) msg

variable (U : Valuation τ sig (Elt Ideal))

/-! ## The stretch before the first call -/

theorem pre_v0 : StableHlo.after (hostOps0 (F := Ideal)) U (Proc.devRef .tc main_v0) = wT64 (U (Proc.devRef .tc main_arg4)) := by
  after_results
theorem pre_v1 : StableHlo.after (hostOps0 (F := Ideal)) U (Proc.devRef .tc main_v1) = wT128 (U (Proc.devRef .tc main_arg5)) := by
  after_results
theorem pre_v2 : StableHlo.after (hostOps0 (F := Ideal)) U (Proc.devRef .tc main_v2) = wT64 (U (Proc.devRef .tc main_arg7)) := by
  after_results
theorem pre_v3 : StableHlo.after (hostOps0 (F := Ideal)) U (Proc.devRef .tc main_v3) = wT64 (U (Proc.devRef .tc main_arg9)) := by
  after_results
theorem pre_v4 : StableHlo.after (hostOps0 (F := Ideal)) U (Proc.devRef .tc main_v4) = wT64 (U (Proc.devRef .tc main_arg11)) := by
  after_results
theorem pre_v5 : StableHlo.after (hostOps0 (F := Ideal)) U (Proc.devRef .tc main_v5) = brow (U (Proc.devRef .tc main_arg6)) := by
  after_results; rfl
theorem pre_v6 : StableHlo.after (hostOps0 (F := Ideal)) U (Proc.devRef .tc main_v6) = brow (U (Proc.devRef .tc main_arg8)) := by
  after_results; rfl
theorem pre_v7 : StableHlo.after (hostOps0 (F := Ideal)) U (Proc.devRef .tc main_v7) = brow (U (Proc.devRef .tc main_arg10)) := by
  after_results; rfl
theorem pre_v8 : StableHlo.after (hostOps0 (F := Ideal)) U (Proc.devRef .tc main_v8) = brow (U (Proc.devRef .tc main_arg12)) := by
  after_results; rfl

/-! ## The two stretches between the second and the third call -/

/-- The fold over a concatenation is the fold over the second list from the fold over the first. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => exact ih _

/-- Contents carried to a buffer's own type and back are the contents (the two types are equal). -/
theorem ofBuf_toBuf {T : BufTy} (x : StableHlo.TRef sig T) (v : T.Contents (Elt Ideal)) : x.ofBuf (x.toBuf v) = v := by
  obtain ⟨r, h, _, _⟩ := x
  subst h
  rfl

/-- The typed references the pieces meet at. -/
abbrev rIdx : StableHlo.TRef sig ⟨S800000x1, .i32⟩ := .of main_call0_v5
abbrev rMask : StableHlo.TRef sig ⟨S800000, .i1⟩ := .of main_call0_v12
abbrev rSrc : StableHlo.TRef sig ⟨S800000, .i32⟩ := .of main_arg2
abbrev rNN : StableHlo.TRef sig ⟨S100000x64, .f32⟩ := .of main_v9
abbrev rOut : StableHlo.TRef sig ⟨S800000x64, .f32⟩ := .of main_v11

/-- At a buffer whose type is the value's own, carrying contents over is the identity. -/
theorem rOut_toBuf (x : (⟨S800000x64, .f32⟩ : BufTy).Contents (Elt Ideal)) : rOut.toBuf (Val := Elt Ideal) x = x := rfl
theorem rNN_ofBuf (x : (⟨S100000x64, .f32⟩ : BufTy).Contents (Elt Ideal)) : rNN.ofBuf (Val := Elt Ideal) x = x := rfl
theorem rSrc_ofBuf (x : (⟨S800000, .i32⟩ : BufTy).Contents (Elt Ideal)) : rSrc.ofBuf (Val := Elt Ideal) x = x := rfl

/-- The guarded take's operations in three pieces: the wrapped index (operations 1 to 8), -/
abbrev takeIdxOps : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_arg2 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_arg2 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_arg2 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
/-- the range test per edge (operations 9 to 18), -/
abbrev takeMaskOps : List (HloOp τ sig (Elt Ideal)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- and the gather, the fill and the select (operations 19 to 23). -/
abbrev takeSelOps : List (HloOp τ sig (Elt Ideal)) :=
  [ StableHlo.TRef.binary (.of main_v9 : StableHlo.TRef sig ⟨S100000x64, .f32⟩) (.of main_call0_v5 : StableHlo.TRef sig ⟨S800000x1, .i32⟩) (.of main_call0_v13 : StableHlo.TRef sig ⟨S800000x64, .f32⟩) (fun x i => Host.gather gather_S100000x64_S800000x1_S800000x64_1_0_n_n_0_1_164 x i),
    StableHlo.TRef.unary (.of main_call0_v12 : StableHlo.TRef sig ⟨S800000, .i1⟩) (.of main_call0_v14 : StableHlo.TRef sig ⟨S800000x64, .i1⟩) (broadcastInDim S800000x64 ![0] bcast_S800000_S800000x64_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x64, .f32⟩) (broadcastInDim S800000x64 ![] bcast_S_S800000x64),
    StableHlo.TRef.ternary (.of main_call0_v14 : StableHlo.TRef sig ⟨S800000x64, .i1⟩) (.of main_call0_v13 : StableHlo.TRef sig ⟨S800000x64, .f32⟩) (.of main_call0_v15 : StableHlo.TRef sig ⟨S800000x64, .f32⟩) (.of main_v11 : StableHlo.TRef sig ⟨S800000x64, .f32⟩) select ]
/-- The three pieces in order are the stretch as printed. -/
theorem take_split : (hostOps2 : List (HloOp τ sig (Elt Ideal))) = takeIdxOps ++ (takeMaskOps ++ takeSelOps) := rfl

/-- No operation of the named piece writes the buffer: every operation's written buffer is another one. -/
local macro "piece_keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem idx_v5 : StableHlo.after takeIdxOps U (Proc.devRef .tc main_call0_v5)
    = rIdx.toBuf (srcIdx (rSrc.ofBuf (U (Proc.devRef .tc main_arg2)))) := by
  after_results
  simp only [ofBuf_toBuf]
  rfl
theorem idx_keeps_v9 : StableHlo.after takeIdxOps U (Proc.devRef .tc main_v9) = U (Proc.devRef .tc main_v9) := by
  piece_keeps takeIdxOps

theorem mask_v12 : StableHlo.after takeMaskOps U (Proc.devRef .tc main_call0_v12)
    = rMask.toBuf (maskOf (rIdx.ofBuf (U (Proc.devRef .tc main_call0_v5)))) := by
  after_results
  simp only [ofBuf_toBuf]
  rfl
theorem mask_keeps_v5 : StableHlo.after takeMaskOps U (Proc.devRef .tc main_call0_v5) = U (Proc.devRef .tc main_call0_v5) := by
  piece_keeps takeMaskOps
theorem mask_keeps_v9 : StableHlo.after takeMaskOps U (Proc.devRef .tc main_v9) = U (Proc.devRef .tc main_v9) := by
  piece_keeps takeMaskOps

theorem sel_v11 : StableHlo.after takeSelOps U (Proc.devRef .tc main_v11)
    = rOut.toBuf (select (broadcastInDim S800000x64 ![0] bcast_S800000_S800000x64_0 (rMask.ofBuf (U (Proc.devRef .tc main_call0_v12))))
        (Host.gather gather_S100000x64_S800000x1_S800000x64_1_0_n_n_0_1_164 (rNN.ofBuf (U (Proc.devRef .tc main_v9)))
          (rIdx.ofBuf (U (Proc.devRef .tc main_call0_v5))))
        (broadcastInDim S800000x64 ![] bcast_S_S800000x64 (constant (F := Ideal) S_ .f32 0x7FC00000#32))) := by
  after_results
  simp only [ofBuf_toBuf]

/-- The whole stretch: the guarded take of the transformed features at the source indices. -/
theorem take_v11 : StableHlo.after (hostOps2 (F := Ideal)) U (Proc.devRef .tc main_v11)
    = takeRows (U (Proc.devRef .tc main_v9)) (U (Proc.devRef .tc main_arg2)) := by
  rw [take_split, after_append, after_append, sel_v11, mask_v12, mask_keeps_v5, mask_keeps_v9, idx_v5, idx_keeps_v9]
  simp only [ofBuf_toBuf]
  rw [rOut_toBuf, rNN_ofBuf, rSrc_ofBuf]
  rfl

theorem sum_v15 : StableHlo.after (hostOps2_1 (F := Ideal)) U (Proc.devRef .tc main_v15)
    = sumAt (mulf (U (Proc.devRef .tc main_v11)) (U (Proc.devRef .tc main_v10))) (U (Proc.devRef .tc main_arg3)) := by
  after_results; rfl

end Cert.KernelHost

end
-- ==== Proof.Spec.lean ====
/-
  The mathematics both programs compute, as functions on the extended reals, index by index.

  A continuous-filter convolution layer on a graph with 100000 nodes and 800000 edges, feature width 64:
    * every node's features go through a linear map, node · W1ᵀ                                   (lin);
    * every edge's 128 radial-basis values go through a two-layer perceptron with a shifted
      softplus between the layers, ssp(rbf · Wc1ᵀ + bc1) · Wc2ᵀ + bc2                              (edgeMlp);
    * the message of an edge is the transformed source row times the edge's filter row, and the messages are
      summed at the edges' destinations (the gather and the scatter-add: shared host operations, not restated here);
    * the summed messages go through a second perceptron and are added to the node's own features,
      node + (ssp(cf · W2ᵀ + b2) · W3ᵀ + b3)                                                       (nodeMlp).
  A weight enters already transposed (wt, contraction axis first), as both programs hold it; a bias as a 1 × n row.
  Each output row depends on the same row of the row-indexed inputs only: that is what lets a block of rows be
  computed by itself (dense_rows and the lemmas after it).
-/
import Idealize.ShloMosaic.PureOps.Ideal
import Idealize.ShloMosaic.Lib.ValueIdx

noncomputable section

namespace Cert.Spec

open Idealize.ShloMosaic Idealize.ShloMosaic.ValueIdx

/-- A matrix of extended reals with r rows and c columns. -/
abbrev Arr (r c : Nat) : Type := (⟨2, ![r, c]⟩ : Shape).Idx → EReal

/-- The shifted softplus 2·log(1 + exp(t/2)), computed as max(0, u) + log1p(exp(−|0 − u|)) at u = t/2, and t itself
    where t/2 > 14. The inner test d ≠ d (a NaN test in floating point) never holds on the extended reals. -/
def ssp (t : EReal) : EReal :=
  Scalar.select (Ideal.cmp .ogt (Ideal.ofBits .f32 0x3F000000#32 * t) (Ideal.ofBits .f32 0x41600000#32)) t
    (Ideal.ofBits .f32 0x40000000#32 *
      Scalar.select
        (Ideal.cmp .one (Ideal.ofBits .f32 0x00000000#32 - Ideal.ofBits .f32 0x3F000000#32 * t)
          (Ideal.ofBits .f32 0x00000000#32 - Ideal.ofBits .f32 0x3F000000#32 * t))
        (Ideal.ofBits .f32 0x00000000#32 + Ideal.ofBits .f32 0x3F000000#32 * t)
        (max (Ideal.ofBits .f32 0x00000000#32) (Ideal.ofBits .f32 0x3F000000#32 * t)
          + Ideal.log1p (Ideal.exp (Ideal.ofBits .f32 0x00000000#32
              - FloatOps.absf (F := Ideal) (φ := .f32)
                  (Ideal.ofBits .f32 0x00000000#32 - Ideal.ofBits .f32 0x3F000000#32 * t)))))

/-- x · wt: entry (p, q) is the sum over k of x (p, k) · wt (k, q). -/
def lin {R K N : Nat} (x : Arr R K) (wt : Arr K N) : Arr R N :=
  fun i => ∑ k : Fin K, x (ix2 (i 0) k) * wt (ix2 k (i 1))

/-- x · wt + b, the bias row b added to every row. -/
def dense {R K N : Nat} (x : Arr R K) (wt : Arr K N) (b : Arr 1 N) : Arr R N :=
  fun i => lin x wt i + b (ix2 0 (i 1))

/-- The edge filter: ssp(x · w1t + b1) · w2t + b2. -/
def edgeMlp {R K : Nat} (x : Arr R K) (w1t : Arr K 64) (b1 : Arr 1 64) (w2t : Arr 64 64) (b2 : Arr 1 64) : Arr R 64 :=
  dense (fun i => ssp (dense x w1t b1 i)) w2t b2

/-- The node update: node + (ssp(cf · w2t + b2) · w3t + b3). -/
def nodeMlp {R : Nat} (node cf : Arr R 64) (w2t : Arr 64 64) (b2 : Arr 1 64) (w3t : Arr 64 64) (b3 : Arr 1 64) : Arr R 64 :=
  fun i => node i + dense (fun j => ssp (dense cf w2t b2 j)) w3t b3 i

/-! ## A block of rows is computed from the same rows -/

theorem lin_rows {B R K N : Nat} (f : Fin B → Fin R) (xb : Arr B K) (x : Arr R K)
    (h : ∀ p k, xb (ix2 p k) = x (ix2 (f p) k)) (wt : Arr K N) (p : Fin B) (q : Fin N) :
    lin xb wt (ix2 p q) = lin x wt (ix2 (f p) q) := by
  show (∑ k : Fin K, xb (ix2 p k) * wt (ix2 k q)) = ∑ k : Fin K, x (ix2 (f p) k) * wt (ix2 k q)
  exact Finset.sum_congr rfl fun k _ => by rw [h p k]

theorem dense_rows {B R K N : Nat} (f : Fin B → Fin R) (xb : Arr B K) (x : Arr R K)
    (h : ∀ p k, xb (ix2 p k) = x (ix2 (f p) k)) (wt : Arr K N) (b : Arr 1 N) (p : Fin B) (q : Fin N) :
    dense xb wt b (ix2 p q) = dense x wt b (ix2 (f p) q) := by
  show lin xb wt (ix2 p q) + b (ix2 0 q) = lin x wt (ix2 (f p) q) + b (ix2 0 q)
  rw [lin_rows f xb x h wt p q]

theorem edgeMlp_rows {B R K : Nat} (f : Fin B → Fin R) (xb : Arr B K) (x : Arr R K)
    (h : ∀ p k, xb (ix2 p k) = x (ix2 (f p) k)) (w1t : Arr K 64) (b1 : Arr 1 64) (w2t : Arr 64 64) (b2 : Arr 1 64)
    (p : Fin B) (q : Fin 64) :
    edgeMlp xb w1t b1 w2t b2 (ix2 p q) = edgeMlp x w1t b1 w2t b2 (ix2 (f p) q) := by
  unfold edgeMlp
  exact dense_rows f (fun i => ssp (dense xb w1t b1 i)) (fun i => ssp (dense x w1t b1 i))
    (fun p' k => congrArg ssp (dense_rows f xb x h w1t b1 p' k)) w2t b2 p q

theorem nodeMlp_rows {B R : Nat} (f : Fin B → Fin R) (nb cb : Arr B 64) (node cf : Arr R 64)
    (hn : ∀ p k, nb (ix2 p k) = node (ix2 (f p) k)) (hc : ∀ p k, cb (ix2 p k) = cf (ix2 (f p) k))
    (w2t : Arr 64 64) (b2 : Arr 1 64) (w3t : Arr 64 64) (b3 : Arr 1 64) (p : Fin B) (q : Fin 64) :
    nodeMlp nb cb w2t b2 w3t b3 (ix2 p q) = nodeMlp node cf w2t b2 w3t b3 (ix2 (f p) q) := by
  show nb (ix2 p q) + dense (fun j => ssp (dense cb w2t b2 j)) w3t b3 (ix2 p q)
    = node (ix2 (f p) q) + dense (fun j => ssp (dense cf w2t b2 j)) w3t b3 (ix2 (f p) q)
  rw [hn p q, dense_rows f (fun j => ssp (dense cb w2t b2 j)) (fun j => ssp (dense cf w2t b2 j))
    (fun p' k => congrArg ssp (dense_rows f cb cf hc w2t b2 p' k)) w3t b3 p q]

end Cert.Spec

end
-- ==== Proof.LibMatmul.lean ====
/-
  A matrix product read at an index, on the extended reals.

  For a contraction of ONE axis between a matrix with M rows and K columns and a matrix with K rows and N columns, where
  the dimension numbers put the left operand's axis 0 and the right operand's axis 1 on the result and contract the left
  operand's axis 1 against the right operand's axis 0 (the four facts l0, l1, r0, r1 about the operand indices, which are
  decided per concrete set of dimension numbers), the product into a zero accumulator has at (p, q) the value
  ∑ k, l (p, k) · r (k, q), the sum taken over Fin K. Nothing is rounded and no order of summation is left in it.
-/
import Idealize.ShloMosaic.PureOps.Ideal.Laws
import Idealize.ShloMosaic.Lib.ValueIdx

noncomputable section

namespace Cert.LibMatmul

open Idealize.ShloMosaic Idealize.ShloMosaic.ValueIdx

/-- The general form: the sum over the contraction index type re-indexed to Fin K, the operand indices named. -/
theorem matmul_zero_ix2 {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂)
    (i : (⟨2, ![M, N]⟩ : Shape).Idx) :
    FloatOps.matmul d prec l r (constant ⟨2, ![M, N]⟩ .f32 0x00000000#32) i
      = ∑ k : Fin K, l (ix2 (i 0) k) * r (ix2 k (i 1)) := by
  rw [Ideal.matmul_constant_zero_apply, ← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  rw [el, er]
  rfl

end Cert.LibMatmul

end
-- ==== Proof.KernelDots.lean ====
/-
  The kernel's three matrix products, read at an index on the extended reals.

  Each of the kernel's matrix products contracts the left operand's columns against the right operand's rows and has no
  batch axis. For each of its three sets of dimension numbers the four facts that say which operand entries meet at
  result entry (p, q) and contraction position k (namely (p, k) and (k, q)) are decided from the printed lists, and the
  product into a zero accumulator is then the plain sum over k.
-/
import proofs.«417610_j16449724744296_1_alg».proof.Proof.Gen.KernelIdeal
import proofs.«417610_j16449724744296_1_alg».proof.Proof.LibMatmul

noncomputable section

namespace Cert.KernelDots

open Cert.KernelIdeal Idealize.ShloMosaic Idealize.ShloMosaic.ValueIdx

/-! ## 10000 × 64 times 64 × 64: the node transform, and both layers of the node update -/

theorem lhs_node_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_node_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_node_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_node_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- At (p, q): the sum over k of l (p, k) · r (k, q). -/
theorem matmul_node {φ₁ φ₂ : FTy} (l : FVec Ideal S10000x64 φ₁) (r : FVec Ideal S64x64 φ₂) (i : S10000x64.Idx) :
    matmul dot_S10000x64_S64x64_S10000x64_1_0_0_1_n_n none l r (constant S10000x64 .f32 0x00000000#32) i
      = ∑ k : Fin 64, l (ix2 (i 0) k) * r (ix2 k (i 1)) :=
  Cert.LibMatmul.matmul_zero_ix2 dot_S10000x64_S64x64_S10000x64_1_0_0_1_n_n rfl rfl
    lhs_node_0 lhs_node_1 rhs_node_0 rhs_node_1 none l r i

/-! ## 16000 × 128 times 128 × 64: the first layer of the edge filter -/

theorem lhs_rbf_0 (i : S16000x64.Idx) (q : dot_S16000x128_S128x64_S16000x64_1_0_0_1_n_n.contr.Idx) :
    (dot_S16000x128_S128x64_S16000x64_1_0_0_1_n_n.lhsIdx i q 0).val = (i 0).val := by
  unfold DotDims.lhsIdx
  rw [dif_neg (show ¬(0 : Fin S16000x128.rank) ∈ dot_S16000x128_S128x64_S16000x64_1_0_0_1_n_n.lhsBatch by decide),
    dif_pos (show (0 : Fin S16000x128.rank) ∈ dot_S16000x128_S128x64_S16000x64_1_0_0_1_n_n.lhsNonContracting by decide)]
  rfl
theorem lhs_rbf_1 (i : S16000x64.Idx) (q : dot_S16000x128_S128x64_S16000x64_1_0_0_1_n_n.contr.Idx) :
    (dot_S16000x128_S128x64_S16000x64_1_0_0_1_n_n.lhsIdx i q 1).val = (q ⟨0, by decide⟩).val :=
  dot_S16000x128_S128x64_S16000x64_1_0_0_1_n_n.lhsIdx_val_of_single rfl i q
theorem rhs_rbf_0 (i : S16000x64.Idx) (q : dot_S16000x128_S128x64_S16000x64_1_0_0_1_n_n.contr.Idx) :
    (dot_S16000x128_S128x64_S16000x64_1_0_0_1_n_n.rhsIdx i q 0).val = (q ⟨0, by decide⟩).val :=
  dot_S16000x128_S128x64_S16000x64_1_0_0_1_n_n.rhsIdx_val_of_single rfl i q
theorem rhs_rbf_1 (i : S16000x64.Idx) (q : dot_S16000x128_S128x64_S16000x64_1_0_0_1_n_n.contr.Idx) :
    (dot_S16000x128_S128x64_S16000x64_1_0_0_1_n_n.rhsIdx i q 1).val = (i 1).val := by
  unfold DotDims.rhsIdx
  rw [dif_neg (show ¬(1 : Fin S128x64.rank) ∈ dot_S16000x128_S128x64_S16000x64_1_0_0_1_n_n.rhsBatch by decide),
    dif_pos (show (1 : Fin S128x64.rank) ∈ dot_S16000x128_S128x64_S16000x64_1_0_0_1_n_n.rhsNonContracting by decide)]
  rfl

/-- At (p, q): the sum over the 128 radial-basis values of l (p, k) · r (k, q). -/
theorem matmul_rbf {φ₁ φ₂ : FTy} (l : FVec Ideal S16000x128 φ₁) (r : FVec Ideal S128x64 φ₂) (i : S16000x64.Idx) :
    matmul dot_S16000x128_S128x64_S16000x64_1_0_0_1_n_n none l r (constant S16000x64 .f32 0x00000000#32) i
      = ∑ k : Fin 128, l (ix2 (i 0) k) * r (ix2 k (i 1)) :=
  Cert.LibMatmul.matmul_zero_ix2 dot_S16000x128_S128x64_S16000x64_1_0_0_1_n_n rfl rfl
    lhs_rbf_0 lhs_rbf_1 rhs_rbf_0 rhs_rbf_1 none l r i

/-! ## 16000 × 64 times 64 × 64: the second layer of the edge filter -/

theorem lhs_edge_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide),
    dif_pos (show (0 : Fin S16000x64.rank) ∈ dot_S16000x64_S64x64_S16000x64_1_0_0_1_n_n.lhsNonContracting by decide)]
  rfl
theorem lhs_edge_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs_edge_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs_edge_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide),
    dif_pos (show (1 : Fin S64x64.rank) ∈ dot_S16000x64_S64x64_S16000x64_1_0_0_1_n_n.rhsNonContracting by decide)]
  rfl

/-- At (p, q): the sum over k of l (p, k) · r (k, q). -/
theorem matmul_edge {φ₁ φ₂ : FTy} (l : FVec Ideal S16000x64 φ₁) (r : FVec Ideal S64x64 φ₂) (i : S16000x64.Idx) :
    matmul dot_S16000x64_S64x64_S16000x64_1_0_0_1_n_n none l r (constant S16000x64 .f32 0x00000000#32) i
      = ∑ k : Fin 64, l (ix2 (i 0) k) * r (ix2 k (i 1)) :=
  Cert.LibMatmul.matmul_zero_ix2 dot_S16000x64_S64x64_S16000x64_1_0_0_1_n_n rfl rfl
    lhs_edge_0 lhs_edge_1 rhs_edge_0 rhs_edge_1 none l r i

end Cert.KernelDots

end
-- ==== Proof.KernelBody.lean ====
/-
  What each kernel body stores, as a function of the blocks it loads, on the extended reals.

  The three bodies compute on a block of rows exactly what the specification computes on a whole array:
    * the node transform stores x · w                                   (Spec.lin);
    * the edge filter stores ssp(x · w1 + b1) · w2 + b2                 (Spec.edgeMlp);
    * the node update stores node + (ssp(cf · w2 + b2) · w3 + b3)       (Spec.nodeMlp).
  A narrowing to bfloat16 is the identity on the extended reals, a shape cast to the same shape is the identity, each
  matrix product into a zero accumulator is the sum over the contracted axis, a bias row broadcast over the rows reads
  the row at the entry's column, and the softplus chain acts entry by entry.
-/
import proofs.«417610_j16449724744296_1_alg».proof.Proof.Gen.KernelIdeal.Skeleton
import proofs.«417610_j16449724744296_1_alg».proof.Proof.Spec
import proofs.«417610_j16449724744296_1_alg».proof.Proof.KernelDots
import Idealize.ShloMosaic.Lib.Pipeline.Value

noncomputable section

namespace Cert.KernelBody

open Cert.KernelIdeal Cert.KernelIdeal.Gen Cert.KernelDots Idealize.ShloMosaic Idealize.ShloMosaic.ValueIdx

/-- A 1 × 64 row broadcast over 16000 rows reads the row at the entry's column. -/
theorem row_bcast_edge (b : FVec Ideal S1x64 .f32) (i : S16000x64.Idx) :
    broadcastTo S16000x64 b broadcasts_S1x64_S16000x64 i = b (ix2 0 (i 1)) :=
  broadcastTo_apply b broadcasts_S1x64_S16000x64 i (ix2 0 (i 1)) (fun a => match a with
    | ⟨0, _⟩ => by show 0 = if (1 : Nat) = 1 then 0 else _; rw [if_pos rfl]
    | ⟨1, _⟩ => by show (i 1).val = if (64 : Nat) = 1 then 0 else _; rw [if_neg (by decide)]; rfl)

/-- A 1 × 64 row broadcast over 10000 rows reads the row at the entry's column. -/
theorem row_bcast_node (b : FVec Ideal S1x64 .f32) (i : S10000x64.Idx) :
    broadcastTo S10000x64 b broadcasts_S1x64_S10000x64 i = b (ix2 0 (i 1)) :=
  broadcastTo_apply b broadcasts_S1x64_S10000x64 i (ix2 0 (i 1)) (fun a => match a with
    | ⟨0, _⟩ => by show 0 = if (1 : Nat) = 1 then 0 else _; rw [if_pos rfl]
    | ⟨1, _⟩ => by show (i 1).val = if (64 : Nat) = 1 then 0 else _; rw [if_neg (by decide)]; rfl)

/-- The node transform's body stores the block's rows times the weight. -/
theorem pay_transform (x0 : Vec Ideal S10000x64 .f32) (x1 : Vec Ideal S64x64 .f32) :
    k0_pay1 (F := Ideal) x0 x1 = Spec.lin x0 x1 := by
  funext i
  unfold k0_pay1
  simp only [shapeCast_self]
  exact matmul_node (truncf .bf16 x0 bitsLt_bf16_f32) (truncf .bf16 x1 bitsLt_bf16_f32) i

/-- The edge filter's body stores the filter of the block's rows. -/
theorem pay_filter (x0 : Vec Ideal S16000x128 .f32) (x1 : Vec Ideal S128x64 .f32) (x2 : Vec Ideal S1x64 .f32)
    (x3 : Vec Ideal S64x64 .f32) (x4 : Vec Ideal S1x64 .f32) :
    k1_pay1 (F := Ideal) (k1_pay2 x0 x1 x2 x3) (k1_pay3 x4) = Spec.edgeMlp x0 x1 x2 x3 x4 := by
  funext i
  unfold k1_pay1 k1_pay2 k1_pay3
  simp only [shapeCast_self]
  show matmul (F := Ideal) dot_S16000x64_S64x64_S16000x64_1_0_0_1_n_n none _ _ (constant S16000x64 .f32 0x00000000#32) i
      + broadcastTo S16000x64 x4 broadcasts_S1x64_S16000x64 i = _
  rw [matmul_edge, row_bcast_edge]
  show _ = (∑ k : Fin 64, Spec.ssp (Spec.dense x0 x1 x2 (ix2 (i 0) k)) * x3 (ix2 k (i 1))) + x4 (ix2 0 (i 1))
  refine congrArg (· + x4 (ix2 0 (i 1))) (Finset.sum_congr rfl fun k _ => ?_)
  refine congrArg (· * x3 (ix2 k (i 1))) ?_
  -- the first layer at (p, k), before the softplus
  have hpre : (addf (matmul (F := Ideal) dot_S16000x128_S128x64_S16000x64_1_0_0_1_n_n none (truncf .bf16 x0 bitsLt_bf16_f32)
        (truncf .bf16 x1 bitsLt_bf16_f32) (constant S16000x64 .f32 0x00000000#32))
      (broadcastTo S16000x64 x2 broadcasts_S1x64_S16000x64)) (ix2 (i 0) k) = Spec.dense x0 x1 x2 (ix2 (i 0) k) := by
    show matmul (F := Ideal) dot_S16000x128_S128x64_S16000x64_1_0_0_1_n_n none _ _ (constant S16000x64 .f32 0x00000000#32) (ix2 (i 0) k)
        + broadcastTo S16000x64 x2 broadcasts_S1x64_S16000x64 (ix2 (i 0) k) = _
    rw [matmul_rbf, row_bcast_edge]
    rfl
  rw [← hpre]
  rfl

/-- The node update's body stores the update of the block's rows. -/
theorem pay_update (x0 x1 : Vec Ideal S10000x64 .f32) (x2 : Vec Ideal S64x64 .f32) (x3 : Vec Ideal S1x64 .f32)
    (x4 : Vec Ideal S64x64 .f32) (x5 : Vec Ideal S1x64 .f32) :
    k2_pay1 (F := Ideal) (k2_pay2 x1 x2 x3 x4) (k2_pay3 x5) x0 = Spec.nodeMlp x0 x1 x2 x3 x4 x5 := by
  funext i
  unfold k2_pay1 k2_pay2 k2_pay3
  simp only [shapeCast_self]
  show x0 i + (matmul (F := Ideal) dot_S10000x64_S64x64_S10000x64_1_0_0_1_n_n none _ _ (constant S10000x64 .f32 0x00000000#32) i
      + broadcastTo S10000x64 x5 broadcasts_S1x64_S10000x64 i) = _
  rw [matmul_node, row_bcast_node]
  show _ = x0 i + ((∑ k : Fin 64, Spec.ssp (Spec.dense x1 x2 x3 (ix2 (i 0) k)) * x4 (ix2 k (i 1))) + x5 (ix2 0 (i 1)))
  refine congrArg (x0 i + ·) ?_
  refine congrArg (· + x5 (ix2 0 (i 1))) (Finset.sum_congr rfl fun k _ => ?_)
  refine congrArg (· * x4 (ix2 k (i 1))) ?_
  -- the first layer at (p, k), before the softplus
  have hpre : (addf (matmul (F := Ideal) dot_S10000x64_S64x64_S10000x64_1_0_0_1_n_n none (truncf .bf16 x1 bitsLt_bf16_f32)
        (truncf .bf16 x2 bitsLt_bf16_f32) (constant S10000x64 .f32 0x00000000#32))
      (broadcastTo S10000x64 x3 broadcasts_S1x64_S10000x64)) (ix2 (i 0) k) = Spec.dense x1 x2 x3 (ix2 (i 0) k) := by
    show matmul (F := Ideal) dot_S10000x64_S64x64_S10000x64_1_0_0_1_n_n none _ _ (constant S10000x64 .f32 0x00000000#32) (ix2 (i 0) k)
        + broadcastTo S10000x64 x3 broadcasts_S1x64_S10000x64 (ix2 (i 0) k) = _
    rw [matmul_node, row_bcast_node]
    rfl
  rw [← hpre]
  rfl

end Cert.KernelBody

end
-- ==== Proof.RegionTransform.lean ====
/-
  The first pallas_call (the node transform) leaves node · w in its output array.

  The call runs over 10 grid points. Point t reads rows 10000·t … 10000·t + 9999 of the node features and the whole
  64 × 64 weight, and writes the same rows of the output. Its body stores the block's rows times the weight, and a row of
  a product depends on the same row of the left factor only, so what point t writes back is block t of ONE whole-array
  function, the product of the whole arrays. The ten blocks tile the 100000 rows, so after the call the output array is
  that product, whatever the array held before.
-/
import proofs.«417610_j16449724744296_1_alg».proof.Proof.Gen.KernelIdeal.Frame
import proofs.«417610_j16449724744296_1_alg».proof.Proof.KernelBody

set_option maxRecDepth 16384

noncomputable section

namespace Cert.RegionTransform

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents the call finds (a parameter, as in the frame)
variable (V : (c : Dev nD) → (b : Ref sig .tc) → Buf (Elt Ideal) ((c : Thread nD τ).loc b))

/-- The node features the call finds. -/
abbrev nodeArr (c : Dev nD) : Vec Ideal S100000x64 .f32 := V c main_arg0
/-- The (already transposed) weight the call finds. -/
abbrev wArr (c : Dev nD) : Vec Ideal S64x64 .f32 := V c main_v0

theorem hz : (![0, 0] : Fin 2 → Nat) = fun _ => 0 := funext fun a => by fin_cases a <;> rfl

/-- The printed index maps over the 10 points: the row-blocked windows sit at block (t, 0), the weight at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Rows T·10000 … of a product are the product of those rows: stated over arrays of literal shapes. -/
theorem lin_block (x : Vec Ideal S100000x64 .f32) (w : Vec Ideal S64x64 .f32) (xb : Vec Ideal S10000x64 .f32)
    (wb : Vec Ideal S64x64 .f32) (T : Nat) (hT : T < 10)
    (hx : ∀ (p : Fin 10000) (k : Fin 64), xb (ix2 p k) = x (ix2 ⟨T * 10000 + p.val, by omega⟩ k)) (hw : wb = w)
    (j : S10000x64.Idx) (i : S100000x64.Idx) (hi0 : (i 0).val = T * 10000 + (j 0).val) (hi1 : (i 1).val = (j 1).val) :
    Spec.lin xb wb j = Spec.lin x w i := by
  subst hw
  have hi : i = ix2 ⟨T * 10000 + (j 0).val, by have hj : (j 0).val < 10000 := (j 0).isLt; omega⟩ (j 1) := by
    funext a; apply Fin.ext
    match a with
    | ⟨0, _⟩ => exact hi0
    | ⟨1, _⟩ => exact hi1
  rw [hi, eq_ix2 j]
  exact Spec.lin_rows (fun p : Fin 10000 => (⟨T * 10000 + p.val, by omega⟩ : Fin 100000)) xb x hx wb (j 0) (j 1)

/-- WHAT POINT t WRITES BACK is block t of the product of the whole arrays. -/
theorem flushed_eq (c : Dev nD) (t : Fin cfg0.N) :
    (dat0 V c).flushed 2 t = ((cfg0.win 2).blk t).view.read (Elt Ideal) (Spec.lin (nodeArr V c) (wArr V c)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  rw [Cert.KernelBody.pay_transform]
  obtain ⟨e0, e1, e2, e3, e4, e5⟩ := idx_facts t
  have ht : t.val < 10 := by have h := t.isLt; have e : cfg0.N = 10 := N_0; omega
  funext j
  show Spec.lin (iblk0 V c 0 t) (iblk0 V c 1 t) j = Spec.lin (nodeArr V c) (wArr V c) (((cfg0.win 2).blk t).view.emb j)
  refine lin_block (nodeArr V c) (wArr V c) (iblk0 V c 0 t) (iblk0 V c 1 t) t.val ht ?_ ?_ j _ ?_ ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · funext y
    show V c main_v0 (((cfg0.win 1).blk t).view.emb y) = V c main_v0 y
    refine congrArg (V c main_v0) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · show win0_2.index t (0 : Fin 2) * 10000 + 1 * (j 0).val = t.val * 10000 + (j 0).val; omega
  · show win0_2.index t (1 : Fin 2) * 64 + 1 * (j 1).val = (j 1).val; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v9).slice (win0_2.rect t)).set ↔ _
  rw [View.set_slice_whole, Rect.mem_set_unit]
  exact Iff.rfl

/-- Every row lies in the block of point (row / 10000). -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by have e : cfg0.N = 10 := N_0; omega
  obtain ⟨-, -, -, -, e4, e5⟩ := idx_facts ⟨(i 0).val / 10000, hN⟩
  have e4' : win0_2.index ⟨(i 0).val / 10000, hN⟩ (0 : Fin 2) = (i 0).val / 10000 := e4
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    omega

/-- THE OUTPUT ARRAY after the call: the node features times the weight. -/
theorem final (c : Dev nD) : (dat0 V c).arrAt 2 cfg0.N = Spec.lin (nodeArr V c) (wArr V c) :=
  (dat0 V c).arrAt_eq_of_cover 2 _ (fun t _ => flushed_eq V c t) cover

end Cert.RegionTransform

end
-- ==== Proof.RegionFilter.lean ====
/-
  The second pallas_call (the edge filter) leaves ssp(rbf · w1 + b1) · w2 + b2 in its output array.

  The call runs over 50 grid points. Point t reads rows 16000·t … 16000·t + 15999 of the radial-basis values and, whole,
  the two weights and the two bias rows, and writes the same rows of the output. Every row of the filter depends on the
  same row of the radial-basis values only, so what point t writes back is block t of the filter of the whole arrays; the
  fifty blocks tile the 800000 rows, so after the call the output array is that filter.
-/
import proofs.«417610_j16449724744296_1_alg».proof.Proof.Gen.KernelIdeal.Frame
import proofs.«417610_j16449724744296_1_alg».proof.Proof.KernelBody

set_option maxRecDepth 16384

noncomputable section

namespace Cert.RegionFilter

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents the call finds (a parameter, as in the frame)
variable (V : (c : Dev nD) → (b : Ref sig .tc) → Buf (Elt Ideal) ((c : Thread nD τ).loc b))

/-- The radial-basis values, the two (already transposed) weights and the two bias rows the call finds. -/
abbrev rbfArr (c : Dev nD) : Vec Ideal S800000x128 .f32 := V c main_arg1
abbrev w1Arr (c : Dev nD) : Vec Ideal S128x64 .f32 := V c main_v1
abbrev b1Arr (c : Dev nD) : Vec Ideal S1x64 .f32 := V c main_v5
abbrev w2Arr (c : Dev nD) : Vec Ideal S64x64 .f32 := V c main_v2
abbrev b2Arr (c : Dev nD) : Vec Ideal S1x64 .f32 := V c main_v6

theorem hz : (![0, 0] : Fin 2 → Nat) = fun _ => 0 := funext fun a => by fin_cases a <;> rfl

/-- The printed index maps over the 50 points: the row-blocked windows sit at block (t, 0), the others at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Rows T·16000 … of the filter are the filter of those rows: stated over arrays of literal shapes. -/
theorem filter_block (x : Vec Ideal S800000x128 .f32) (xb : Vec Ideal S16000x128 .f32)
    (w1 w1b : Vec Ideal S128x64 .f32) (b1 b1b : Vec Ideal S1x64 .f32) (w2 w2b : Vec Ideal S64x64 .f32) (b2 b2b : Vec Ideal S1x64 .f32)
    (T : Nat) (hT : T < 50)
    (hx : ∀ (p : Fin 16000) (k : Fin 128), xb (ix2 p k) = x (ix2 ⟨T * 16000 + p.val, by omega⟩ k))
    (h1 : w1b = w1) (h2 : b1b = b1) (h3 : w2b = w2) (h4 : b2b = b2)
    (j : S16000x64.Idx) (i : S800000x64.Idx) (hi0 : (i 0).val = T * 16000 + (j 0).val) (hi1 : (i 1).val = (j 1).val) :
    Spec.edgeMlp xb w1b b1b w2b b2b j = Spec.edgeMlp x w1 b1 w2 b2 i := by
  subst h1 h2 h3 h4
  have hi : i = ix2 ⟨T * 16000 + (j 0).val, by have hj : (j 0).val < 16000 := (j 0).isLt; omega⟩ (j 1) := by
    funext a; apply Fin.ext
    match a with
    | ⟨0, _⟩ => exact hi0
    | ⟨1, _⟩ => exact hi1
  rw [hi, eq_ix2 j]
  exact Spec.edgeMlp_rows (fun p : Fin 16000 => (⟨T * 16000 + p.val, by omega⟩ : Fin 800000)) xb x hx w1b b1b w2b b2b (j 0) (j 1)

/-- WHAT POINT t WRITES BACK is block t of the filter of the whole arrays. -/
theorem flushed_eq (c : Dev nD) (t : Fin cfg1.N) :
    (dat1 V c).flushed 5 t = ((cfg1.win 5).blk t).view.read (Elt Ideal)
      (Spec.edgeMlp (rbfArr V c) (w1Arr V c) (b1Arr V c) (w2Arr V c) (b2Arr V c)) := by
  show (cfg1.win 5).cut (grid1.coords t) ((dat1 V c).after 5 t) = _
  rw [after1_5]
  unfold out1_5
  rw [View.canon_unit_zero hz]
  simp only [View.ld_unit_zero (S := S16000x128) hz, View.ld_unit_zero (S := S128x64) hz, View.ld_unit_zero (S := S1x64) hz,
    View.ld_unit_zero (S := S64x64) hz]
  rw [Cert.KernelBody.pay_filter]
  obtain ⟨e0, e1, e2, e3, e4, e5, e6, e7, e8, e9, e10, e11⟩ := idx_facts t
  have ht : t.val < 50 := by have h := t.isLt; have e : cfg1.N = 50 := N_1; omega
  funext j
  show Spec.edgeMlp (iblk1 V c 0 t) (iblk1 V c 1 t) (iblk1 V c 2 t) (iblk1 V c 3 t) (iblk1 V c 4 t) j
    = Spec.edgeMlp (rbfArr V c) (w1Arr V c) (b1Arr V c) (w2Arr V c) (b2Arr V c) (((cfg1.win 5).blk t).view.emb j)
  refine filter_block (rbfArr V c) (iblk1 V c 0 t) (w1Arr V c) (iblk1 V c 1 t) (b1Arr V c) (iblk1 V c 2 t)
    (w2Arr V c) (iblk1 V c 3 t) (b2Arr V c) (iblk1 V c 4 t) t.val ht ?_ ?_ ?_ ?_ ?_ j _ ?_ ?_
  · intro p k
    show V c main_arg1 (((cfg1.win 0).blk t).view.emb (ix2 p k)) = V c main_arg1 _
    refine congrArg (V c main_arg1) (funext fun a => Fin.ext ?_)
    match a with
    | ⟨0, _⟩ => show win1_0.index t (0 : Fin 2) * 16000 + 1 * p.val = t.val * 16000 + p.val; omega
    | ⟨1, _⟩ => show win1_0.index t (1 : Fin 2) * 128 + 1 * k.val = k.val; omega
  · funext y
    show V c main_v1 (((cfg1.win 1).blk t).view.emb y) = V c main_v1 y
    refine congrArg (V c main_v1) (funext fun a => Fin.ext ?_)
    match a with
    | ⟨0, _⟩ => show win1_1.index t (0 : Fin 2) * 128 + 1 * (y 0).val = (y 0).val; omega
    | ⟨1, _⟩ => show win1_1.index t (1 : Fin 2) * 64 + 1 * (y 1).val = (y 1).val; omega
  · funext y
    show V c main_v5 (((cfg1.win 2).blk t).view.emb y) = V c main_v5 y
    refine congrArg (V c main_v5) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · funext y
    show V c main_v2 (((cfg1.win 3).blk t).view.emb y) = V c main_v2 y
    refine congrArg (V c main_v2) (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · funext y
    show V c main_v6 (((cfg1.win 4).blk t).view.emb y) = V c main_v6 y
    refine congrArg (V c main_v6) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  · show win1_5.index t (0 : Fin 2) * 16000 + 1 * (j 0).val = t.val * 16000 + (j 0).val; omega
  · show win1_5.index t (1 : Fin 2) * 64 + 1 * (j 1).val = (j 1).val; omega

/-- An index of the output array is in point t's block iff each coordinate is in the block's range on its axis. -/
theorem mem_blk (t : Fin cfg1.N) (i : S800000x64.Idx) :
    i ∈ ((cfg1.win 5).blk t).view.set ↔ ∀ a : Fin 2, win1_5.index t a * S16000x64.size a ≤ (i a).val
      ∧ (i a).val < win1_5.index t a * S16000x64.size a + S16000x64.size a := by
  show i ∈ ((View.whole main_v10).slice (win1_5.rect t)).set ↔ _
  rw [View.set_slice_whole, Rect.mem_set_unit]
  exact Iff.rfl

/-- Every row lies in the block of point (row / 16000). -/
theorem cover (i : S800000x64.Idx) :
    ∃ t : Fin cfg1.N, (cfg1.win 5).flush t = true ∧ i ∈ ((cfg1.win 5).blk t).view.set := by
  have hi0 : (i 0).val < 800000 := (i 0).isLt
  have hi1 : (i 1).val < 64 := (i 1).isLt
  have hN : (i 0).val / 16000 < cfg1.N := by have e : cfg1.N = 50 := N_1; omega
  obtain ⟨-, -, -, -, -, -, -, -, -, -, e10, e11⟩ := idx_facts ⟨(i 0).val / 16000, hN⟩
  have e10' : win1_5.index ⟨(i 0).val / 16000, hN⟩ (0 : Fin 2) = (i 0).val / 16000 := e10
  refine ⟨⟨(i 0).val / 16000, hN⟩, flush1_5 _, ?_⟩
  rw [mem_blk]
  intro a
  match a with
  | ⟨0, _⟩ =>
    show win1_5.index ⟨(i 0).val / 16000, hN⟩ (0 : Fin 2) * 16000 ≤ (i 0).val
      ∧ (i 0).val < win1_5.index ⟨(i 0).val / 16000, hN⟩ (0 : Fin 2) * 16000 + 16000
    omega
  | ⟨1, _⟩ =>
    show win1_5.index ⟨(i 0).val / 16000, hN⟩ (1 : Fin 2) * 64 ≤ (i 1).val
      ∧ (i 1).val < win1_5.index ⟨(i 0).val / 16000, hN⟩ (1 : Fin 2) * 64 + 64
    omega

/-- THE OUTPUT ARRAY after the call: the edge filter of the whole arrays. -/
theorem final (c : Dev nD) : (dat1 V c).arrAt 5 cfg1.N
    = Spec.edgeMlp (rbfArr V c) (w1Arr V c) (b1Arr V c) (w2Arr V c) (b2Arr V c) :=
  (dat1 V c).arrAt_eq_of_cover 5 _ (fun t _ => flushed_eq V c t) cover

end Cert.RegionFilter

end
-- ==== Proof.RegionUpdate.lean ====
/-
  The third pallas_call (the node update) leaves node + (ssp(cf · w2 + b2) · w3 + b3) in its output array.

  The call runs over 10 grid points. Point t reads rows 10000·t … 10000·t + 9999 of the node features and of the summed
  messages and, whole, the two weights and the two bias rows, and writes the same rows of the output. Every row of the
  update depends on the same row of the two row-indexed inputs only, so what point t writes back is block t of the update
  of the whole arrays; the ten blocks tile the 100000 rows, so after the call the output array is that update.
-/
import proofs.«417610_j16449724744296_1_alg».proof.Proof.Gen.KernelIdeal.Frame
import proofs.«417610_j16449724744296_1_alg».proof.Proof.KernelBody

set_option maxRecDepth 16384

noncomputable section

namespace Cert.RegionUpdate

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents the call finds (a parameter, as in the frame)
variable (V : (c : Dev nD) → (b : Ref sig .tc) → Buf (Elt Ideal) ((c : Thread nD τ).loc b))

/-- The node features, the summed messages, the two (already transposed) weights and the two bias rows the call finds. -/
abbrev nodeArr (c : Dev nD) : Vec Ideal S100000x64 .f32 := V c main_arg0
abbrev cfArr (c : Dev nD) : Vec Ideal S100000x64 .f32 := V c main_v15
abbrev w2Arr (c : Dev nD) : Vec Ideal S64x64 .f32 := V c main_v3
abbrev b2Arr (c : Dev nD) : Vec Ideal S1x64 .f32 := V c main_v7
abbrev w3Arr (c : Dev nD) : Vec Ideal S64x64 .f32 := V c main_v4
abbrev b3Arr (c : Dev nD) : Vec Ideal S1x64 .f32 := V c main_v8

theorem hz : (![0, 0] : Fin 2 → Nat) = fun _ => 0 := funext fun a => by fin_cases a <;> rfl

/-- The printed index maps over the 10 points: the row-blocked windows sit at block (t, 0), the others at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Rows T·10000 … of the update are the update of those rows: stated over arrays of literal shapes. -/
theorem update_block (nd cf : Vec Ideal S100000x64 .f32) (nb cb : Vec Ideal S10000x64 .f32)
    (w2 w2b : Vec Ideal S64x64 .f32) (b2 b2b : Vec Ideal S1x64 .f32) (w3 w3b : Vec Ideal S64x64 .f32) (b3 b3b : Vec Ideal S1x64 .f32)
    (T : Nat) (hT : T < 10)
    (hn : ∀ (p : Fin 10000) (k : Fin 64), nb (ix2 p k) = nd (ix2 ⟨T * 10000 + p.val, by omega⟩ k))
    (hc : ∀ (p : Fin 10000) (k : Fin 64), cb (ix2 p k) = cf (ix2 ⟨T * 10000 + p.val, by omega⟩ k))
    (h1 : w2b = w2) (h2 : b2b = b2) (h3 : w3b = w3) (h4 : b3b = b3)
    (j : S10000x64.Idx) (i : S100000x64.Idx) (hi0 : (i 0).val = T * 10000 + (j 0).val) (hi1 : (i 1).val = (j 1).val) :
    Spec.nodeMlp nb cb w2b b2b w3b b3b j = Spec.nodeMlp nd cf w2 b2 w3 b3 i := by
  subst h1 h2 h3 h4
  have hi : i = ix2 ⟨T * 10000 + (j 0).val, by have hj : (j 0).val < 10000 := (j 0).isLt; omega⟩ (j 1) := by
    funext a; apply Fin.ext
    match a with
    | ⟨0, _⟩ => exact hi0
    | ⟨1, _⟩ => exact hi1
  rw [hi, eq_ix2 j]
  exact Spec.nodeMlp_rows (fun p : Fin 10000 => (⟨T * 10000 + p.val, by omega⟩ : Fin 100000)) nb cb nd cf hn hc
    w2b b2b w3b b3b (j 0) (j 1)

/-- WHAT POINT t WRITES BACK is block t of the update of the whole arrays. -/
theorem flushed_eq (c : Dev nD) (t : Fin cfg2.N) :
    (dat2 V c).flushed 6 t = ((cfg2.win 6).blk t).view.read (Elt Ideal)
      (Spec.nodeMlp (nodeArr V c) (cfArr V c) (w2Arr V c) (b2Arr V c) (w3Arr V c) (b3Arr V c)) := by
  show (cfg2.win 6).cut (grid2.coords t) ((dat2 V c).after 6 t) = _
  rw [after2_6]
  unfold out2_6
  rw [View.canon_unit_zero hz]
  simp only [View.ld_unit_zero (S := S10000x64) hz, View.ld_unit_zero (S := S64x64) hz, View.ld_unit_zero (S := S1x64) hz]
  rw [Cert.KernelBody.pay_update]
  obtain ⟨e0, e1, e2, e3, e4, e5, e6, e7, e8, e9, e10, e11, e12, e13⟩ := idx_facts t
  have ht : t.val < 10 := by have h := t.isLt; have e : cfg2.N = 10 := N_2; omega
  funext j
  show Spec.nodeMlp (iblk2 V c 0 t) (iblk2 V c 1 t) (iblk2 V c 2 t) (iblk2 V c 3 t) (iblk2 V c 4 t) (iblk2 V c 5 t) j
    = Spec.nodeMlp (nodeArr V c) (cfArr V c) (w2Arr V c) (b2Arr V c) (w3Arr V c) (b3Arr V c) (((cfg2.win 6).blk t).view.emb j)
  refine update_block (nodeArr V c) (cfArr V c) (iblk2 V c 0 t) (iblk2 V c 1 t) (w2Arr V c) (iblk2 V c 2 t)
    (b2Arr V c) (iblk2 V c 3 t) (w3Arr V c) (iblk2 V c 4 t) (b3Arr V c) (iblk2 V c 5 t) t.val ht ?_ ?_ ?_ ?_ ?_ ?_ j _ ?_ ?_
  · intro p k
    show V c main_arg0 (((cfg2.win 0).blk t).view.emb (ix2 p k)) = V c main_arg0 _
    refine congrArg (V c main_arg0) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · intro p k
    show V c main_v15 (((cfg2.win 1).blk t).view.emb (ix2 p k)) = V c main_v15 _
    refine congrArg (V c main_v15) (funext fun a => Fin.ext ?_)
    match a with
    | ⟨0, _⟩ => show win2_1.index t (0 : Fin 2) * 10000 + 1 * p.val = t.val * 10000 + p.val; omega
    | ⟨1, _⟩ => show win2_1.index t (1 : Fin 2) * 64 + 1 * k.val = k.val; omega
  · funext y
    show V c main_v3 (((cfg2.win 2).blk t).view.emb y) = V c main_v3 y
    refine congrArg (V c main_v3) (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  · funext y
    show V c main_v7 (((cfg2.win 3).blk t).view.emb y) = V c main_v7 y
    refine congrArg (V c main_v7) (funext fun a => Fin.ext ?_)
    match a with
    | ⟨0, _⟩ => show win2_3.index t (0 : Fin 2) * 1 + 1 * (y 0).val = (y 0).val; omega
    | ⟨1, _⟩ => show win2_3.index t (1 : Fin 2) * 64 + 1 * (y 1).val = (y 1).val; omega
  · funext y
    show V c main_v4 (((cfg2.win 4).blk t).view.emb y) = V c main_v4 y
    refine congrArg (V c main_v4) (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  · funext y
    show V c main_v8 (((cfg2.win 5).blk t).view.emb y) = V c main_v8 y
    refine congrArg (V c main_v8) (funext fun a => Fin.ext ?_)
    match a with
    | ⟨0, _⟩ => show win2_5.index t (0 : Fin 2) * 1 + 1 * (y 0).val = (y 0).val; omega
    | ⟨1, _⟩ => show win2_5.index t (1 : Fin 2) * 64 + 1 * (y 1).val = (y 1).val; omega
  · show win2_6.index t (0 : Fin 2) * 10000 + 1 * (j 0).val = t.val * 10000 + (j 0).val; omega
  · show win2_6.index t (1 : Fin 2) * 64 + 1 * (j 1).val = (j 1).val; omega

/-- An index of the output array is in point t's block iff each coordinate is in the block's range on its axis. -/
theorem mem_blk (t : Fin cfg2.N) (i : S100000x64.Idx) :
    i ∈ ((cfg2.win 6).blk t).view.set ↔ ∀ a : Fin 2, win2_6.index t a * S10000x64.size a ≤ (i a).val
      ∧ (i a).val < win2_6.index t a * S10000x64.size a + S10000x64.size a := by
  show i ∈ ((View.whole main_v16).slice (win2_6.rect t)).set ↔ _
  rw [View.set_slice_whole, Rect.mem_set_unit]
  exact Iff.rfl

/-- Every row lies in the block of point (row / 10000). -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : (i 0).val / 10000 < cfg2.N := by have e : cfg2.N = 10 := N_2; omega
  obtain ⟨-, -, -, -, -, -, -, -, -, -, -, -, e12, e13⟩ := idx_facts ⟨(i 0).val / 10000, hN⟩
  have e12' : win2_6.index ⟨(i 0).val / 10000, hN⟩ (0 : Fin 2) = (i 0).val / 10000 := e12
  refine ⟨⟨(i 0).val / 10000, hN⟩, flush2_6 _, ?_⟩
  rw [mem_blk]
  intro a
  match a with
  | ⟨0, _⟩ =>
    show win2_6.index ⟨(i 0).val / 10000, hN⟩ (0 : Fin 2) * 10000 ≤ (i 0).val
      ∧ (i 0).val < win2_6.index ⟨(i 0).val / 10000, hN⟩ (0 : Fin 2) * 10000 + 10000
    omega
  | ⟨1, _⟩ =>
    show win2_6.index ⟨(i 0).val / 10000, hN⟩ (1 : Fin 2) * 64 ≤ (i 1).val
      ∧ (i 1).val < win2_6.index ⟨(i 0).val / 10000, hN⟩ (1 : Fin 2) * 64 + 64
    omega

/-- THE OUTPUT ARRAY after the call: the node update of the whole arrays. -/
theorem final (c : Dev nD) : (dat2 V c).arrAt 6 cfg2.N
    = Spec.nodeMlp (nodeArr V c) (cfArr V c) (w2Arr V c) (b2Arr V c) (w3Arr V c) (b3Arr V c) :=
  (dat2 V c).arrAt_eq_of_cover 6 _ (fun t _ => flushed_eq V c t) cover

end Cert.RegionUpdate

end
-- ==== Proof.KernelValue.lean ====
/-
  The kernel program's result array, as a function of its thirteen argument arrays.

  @main is six segments: the host stretch that prepares the weights and bias rows; the node transform; the edge filter;
  the guarded take; the product with the filter summed at the destinations; the node update. The buffer contents at each
  boundary are a fold from the launch memory. Reading that fold back, buffer by buffer: a buffer no operation of a stretch
  writes and no window of a call names keeps its contents; a call's input array keeps its contents; a call's output array
  ends at the function the call's module proves; a host-computed buffer ends at its operation's value. So the result buffer
  holds the node update of the node features, of the summed messages (the guarded take of the transformed features, times
  the filter, summed at the destinations), and of the prepared weights and bias rows.
-/
import proofs.«417610_j16449724744296_1_alg».proof.Proof.Gen.KernelIdeal.Frame
import proofs.«417610_j16449724744296_1_alg».proof.Proof.KernelHost
import proofs.«417610_j16449724744296_1_alg».proof.Proof.RegionTransform
import proofs.«417610_j16449724744296_1_alg».proof.Proof.RegionFilter
import proofs.«417610_j16449724744296_1_alg».proof.Proof.RegionUpdate

set_option maxRecDepth 16384

noncomputable section

namespace Cert.KernelValue

open Cert.KernelIdeal Cert.KernelIdeal.Gen Cert.KernelHost Idealize.ShloMosaic Idealize.ShloMosaic.TcCoe Idealize.SL.Sem
open Idealize.ShloMosaic.Pipeline (Dat Cfg Window)

/-- THE KERNEL'S RESULT as a function of the argument arrays. -/
def kv (a0 : FVec Ideal S100000x64 .f32) (a1 : FVec Ideal S800000x128 .f32) (a2 a3 : IVec S800000 32)
    (a4 : FVec Ideal S64x64 .f32) (a5 : FVec Ideal S64x128 .f32) (a6 : FVec Ideal S64 .f32) (a7 : FVec Ideal S64x64 .f32)
    (a8 : FVec Ideal S64 .f32) (a9 : FVec Ideal S64x64 .f32) (a10 : FVec Ideal S64 .f32) (a11 : FVec Ideal S64x64 .f32)
    (a12 : FVec Ideal S64 .f32) : FVec Ideal S100000x64 .f32 :=
  Spec.nodeMlp a0
    (sumAt (mulf (takeRows (Spec.lin a0 (wT64 a4)) a2) (Spec.edgeMlp a1 (wT128 a5) (brow a6) (wT64 a7) (brow a8))) a3)
    (wT64 a9) (brow a10) (wT64 a11) (brow a12)

variable (m : (ℓ : Loc nD τ sig) → Buf (Elt Ideal) ℓ) (ρ : Dev nD → PrngReg)

/-- No operation of the named stretch writes the buffer: every operation's written buffer is another one. -/
local macro "no_write " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## At the first call's entry (after the preparing stretch) -/

theorem w1_arg0 (c : Dev nD) : W1 m ρ c (Proc.devRef .tc main_arg0) = m ((c : Thread nD τ).loc main_arg0) :=
  (StableHlo.after_of_forall_not_mem (b := Proc.devRef .tc main_arg0) _ _ (by no_write hostOps0)).trans rfl
theorem w1_arg1 (c : Dev nD) : W1 m ρ c (Proc.devRef .tc main_arg1) = m ((c : Thread nD τ).loc main_arg1) :=
  (StableHlo.after_of_forall_not_mem (b := Proc.devRef .tc main_arg1) _ _ (by no_write hostOps0)).trans rfl
theorem w1_arg2 (c : Dev nD) : W1 m ρ c (Proc.devRef .tc main_arg2) = m ((c : Thread nD τ).loc main_arg2) :=
  (StableHlo.after_of_forall_not_mem (b := Proc.devRef .tc main_arg2) _ _ (by no_write hostOps0)).trans rfl
theorem w1_arg3 (c : Dev nD) : W1 m ρ c (Proc.devRef .tc main_arg3) = m ((c : Thread nD τ).loc main_arg3) :=
  (StableHlo.after_of_forall_not_mem (b := Proc.devRef .tc main_arg3) _ _ (by no_write hostOps0)).trans rfl
theorem w1_v0 (c : Dev nD) : W1 m ρ c (Proc.devRef .tc main_v0) = wT64 (m ((c : Thread nD τ).loc main_arg4)) := pre_v0 (W0 m ρ c)
theorem w1_v1 (c : Dev nD) : W1 m ρ c (Proc.devRef .tc main_v1) = wT128 (m ((c : Thread nD τ).loc main_arg5)) := pre_v1 (W0 m ρ c)
theorem w1_v2 (c : Dev nD) : W1 m ρ c (Proc.devRef .tc main_v2) = wT64 (m ((c : Thread nD τ).loc main_arg7)) := pre_v2 (W0 m ρ c)
theorem w1_v3 (c : Dev nD) : W1 m ρ c (Proc.devRef .tc main_v3) = wT64 (m ((c : Thread nD τ).loc main_arg9)) := pre_v3 (W0 m ρ c)
theorem w1_v4 (c : Dev nD) : W1 m ρ c (Proc.devRef .tc main_v4) = wT64 (m ((c : Thread nD τ).loc main_arg11)) := pre_v4 (W0 m ρ c)
theorem w1_v5 (c : Dev nD) : W1 m ρ c (Proc.devRef .tc main_v5) = brow (m ((c : Thread nD τ).loc main_arg6)) := pre_v5 (W0 m ρ c)
theorem w1_v6 (c : Dev nD) : W1 m ρ c (Proc.devRef .tc main_v6) = brow (m ((c : Thread nD τ).loc main_arg8)) := pre_v6 (W0 m ρ c)
theorem w1_v7 (c : Dev nD) : W1 m ρ c (Proc.devRef .tc main_v7) = brow (m ((c : Thread nD τ).loc main_arg10)) := pre_v7 (W0 m ρ c)
theorem w1_v8 (c : Dev nD) : W1 m ρ c (Proc.devRef .tc main_v8) = brow (m ((c : Thread nD τ).loc main_arg12)) := pre_v8 (W0 m ρ c)

/-! ## After the node transform -/

/-- The transformed node features. -/
theorem w2_v9 (c : Dev nD) : W2 m ρ c (Proc.devRef .tc main_v9)
    = Spec.lin (m ((c : Thread nD τ).loc main_arg0)) (wT64 (m ((c : Thread nD τ).loc main_arg4))) :=
  (W2_arr m ρ c 2).trans ((Cert.RegionTransform.final (V1 m ρ) c).trans
    (congrArg₂ Spec.lin (w1_arg0 m ρ c) (w1_v0 m ρ c)))

/-- The node features pass through the transform's input window unchanged. -/
theorem w2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (w1_arg0 m ρ c)

/-! ## After the edge filter -/

/-- The edge filter. -/
theorem w3_v10 (c : Dev nD) : W3 m ρ c (Proc.devRef .tc main_v10)
    = Spec.edgeMlp (m ((c : Thread nD τ).loc main_arg1)) (wT128 (m ((c : Thread nD τ).loc main_arg5)))
        (brow (m ((c : Thread nD τ).loc main_arg6))) (wT64 (m ((c : Thread nD τ).loc main_arg7)))
        (brow (m ((c : Thread nD τ).loc main_arg8))) := by
  refine (W3_arr m ρ c 5).trans ((Cert.RegionFilter.final (V2 m ρ) c).trans ?_)
  rw [show Cert.RegionFilter.rbfArr (V2 m ρ) c = m ((c : Thread nD τ).loc main_arg1) from
        (W2_of_ne m ρ c main_arg1 (by decide)).trans (w1_arg1 m ρ c),
    show Cert.RegionFilter.w1Arr (V2 m ρ) c = wT128 (m ((c : Thread nD τ).loc main_arg5)) from
        (W2_of_ne m ρ c main_v1 (by decide)).trans (w1_v1 m ρ c),
    show Cert.RegionFilter.b1Arr (V2 m ρ) c = brow (m ((c : Thread nD τ).loc main_arg6)) from
        (W2_of_ne m ρ c main_v5 (by decide)).trans (w1_v5 m ρ c),
    show Cert.RegionFilter.w2Arr (V2 m ρ) c = wT64 (m ((c : Thread nD τ).loc main_arg7)) from
        (W2_of_ne m ρ c main_v2 (by decide)).trans (w1_v2 m ρ c),
    show Cert.RegionFilter.b2Arr (V2 m ρ) c = brow (m ((c : Thread nD τ).loc main_arg8)) from
        (W2_of_ne m ρ c main_v6 (by decide)).trans (w1_v6 m ρ c)]

/-- A buffer neither call names as an array is, after the filter, what it was at the first call's entry. -/
theorem w3_of_w1 (c : Dev nD) (b : Ref sig .tc) (h1 : ∀ w, Pipeline.arrRef spec1 w ≠ b) (h0 : ∀ w, Pipeline.arrRef spec0 w ≠ b) :
    W3 m ρ c (Proc.devRef .tc b) = W1 m ρ c (Proc.devRef .tc b) :=
  (W3_of_ne m ρ c b h1).trans (W2_of_ne m ρ c b h0)

/-! ## After the guarded take, and after the sum at the destinations (the last call's entry) -/

/-- The summed messages. -/
theorem w5_v15 (c : Dev nD) : W5 m ρ c (Proc.devRef .tc main_v15)
    = sumAt (mulf
        (takeRows (Spec.lin (m ((c : Thread nD τ).loc main_arg0)) (wT64 (m ((c : Thread nD τ).loc main_arg4))))
          (m ((c : Thread nD τ).loc main_arg2)))
        (Spec.edgeMlp (m ((c : Thread nD τ).loc main_arg1)) (wT128 (m ((c : Thread nD τ).loc main_arg5)))
          (brow (m ((c : Thread nD τ).loc main_arg6))) (wT64 (m ((c : Thread nD τ).loc main_arg7)))
          (brow (m ((c : Thread nD τ).loc main_arg8)))))
      (m ((c : Thread nD τ).loc main_arg3)) := by
  refine (sum_v15 (W4 m ρ c)).trans ?_
  have h11 : W4 m ρ c (Proc.devRef .tc main_v11)
      = takeRows (Spec.lin (m ((c : Thread nD τ).loc main_arg0)) (wT64 (m ((c : Thread nD τ).loc main_arg4))))
          (m ((c : Thread nD τ).loc main_arg2)) := by
    refine (take_v11 (W3 m ρ c)).trans ?_
    rw [show W3 m ρ c (Proc.devRef .tc main_v9) = _ from (W3_of_ne m ρ c main_v9 (by decide)).trans (w2_v9 m ρ c),
      show W3 m ρ c (Proc.devRef .tc main_arg2) = _ from
        (w3_of_w1 m ρ c main_arg2 (by decide) (by decide)).trans (w1_arg2 m ρ c)]
  have h10 : W4 m ρ c (Proc.devRef .tc main_v10) = _ :=
    (StableHlo.after_of_forall_not_mem (b := Proc.devRef .tc main_v10) _ _ (by no_write hostOps2)).trans (w3_v10 m ρ c)
  have h3 : W4 m ρ c (Proc.devRef .tc main_arg3) = m ((c : Thread nD τ).loc main_arg3) :=
    (StableHlo.after_of_forall_not_mem (b := Proc.devRef .tc main_arg3) _ _ (by no_write hostOps2)).trans
      ((w3_of_w1 m ρ c main_arg3 (by decide) (by decide)).trans (w1_arg3 m ρ c))
  rw [h11, h10, h3]

/-- The node features at the last call's entry. -/
theorem w5_arg0 (c : Dev nD) : W5 m ρ c (Proc.devRef .tc main_arg0) = m ((c : Thread nD τ).loc main_arg0) :=
  (StableHlo.after_of_forall_not_mem (b := Proc.devRef .tc main_arg0) _ _ (by no_write hostOps2_1)).trans
    ((StableHlo.after_of_forall_not_mem (b := Proc.devRef .tc main_arg0) _ _ (by no_write hostOps2)).trans
      ((W3_of_ne m ρ c main_arg0 (by decide)).trans (w2_arg0 m ρ c)))

/-- A prepared weight or bias row at the last call's entry is what the preparing stretch left. -/
theorem w5_of_w1 (c : Dev nD) (b : Ref sig .tc)
    (h21 : ∀ op ∈ (hostOps2_1 : List (HloOp τ sig (Elt Ideal))), (Proc.devRef .tc b : DevRef τ sig) ∉ op.writes)
    (h2 : ∀ op ∈ (hostOps2 : List (HloOp τ sig (Elt Ideal))), (Proc.devRef .tc b : DevRef τ sig) ∉ op.writes)
    (h1 : ∀ w, Pipeline.arrRef spec1 w ≠ b) (h0 : ∀ w, Pipeline.arrRef spec0 w ≠ b) :
    W5 m ρ c (Proc.devRef .tc b) = W1 m ρ c (Proc.devRef .tc b) :=
  (StableHlo.after_of_forall_not_mem _ _ h21).trans
    ((StableHlo.after_of_forall_not_mem _ _ h2).trans (w3_of_w1 m ρ c b h1 h0))

/-! ## After the node update: the result -/

/-- THE RESULT BUFFER at the last boundary is kv of the argument arrays. -/
theorem value (c : Dev nD) : W6 m ρ c (Proc.devRef .tc main_v16)
    = kv (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  refine (W6_arr m ρ c 6).trans ((Cert.RegionUpdate.final (V5 m ρ) c).trans ?_)
  rw [show Cert.RegionUpdate.nodeArr (V5 m ρ) c = m ((c : Thread nD τ).loc main_arg0) from w5_arg0 m ρ c,
    show Cert.RegionUpdate.cfArr (V5 m ρ) c = _ from w5_v15 m ρ c,
    show Cert.RegionUpdate.w2Arr (V5 m ρ) c = wT64 (m ((c : Thread nD τ).loc main_arg9)) from
      (w5_of_w1 m ρ c main_v3 (by no_write hostOps2_1) (by no_write hostOps2) (by decide) (by decide)).trans (w1_v3 m ρ c),
    show Cert.RegionUpdate.b2Arr (V5 m ρ) c = brow (m ((c : Thread nD τ).loc main_arg10)) from
      (w5_of_w1 m ρ c main_v7 (by no_write hostOps2_1) (by no_write hostOps2) (by decide) (by decide)).trans (w1_v7 m ρ c),
    show Cert.RegionUpdate.w3Arr (V5 m ρ) c = wT64 (m ((c : Thread nD τ).loc main_arg11)) from
      (w5_of_w1 m ρ c main_v4 (by no_write hostOps2_1) (by no_write hostOps2) (by decide) (by decide)).trans (w1_v4 m ρ c),
    show Cert.RegionUpdate.b3Arr (V5 m ρ) c = brow (m ((c : Thread nD τ).loc main_arg12)) from
      (w5_of_w1 m ρ c main_v8 (by no_write hostOps2_1) (by no_write hostOps2) (by decide) (by decide)).trans (w1_v8 m ρ c)]
  rfl

end Cert.KernelValue

end
-- ==== Proof.LibAllOnes.lean ====
/-
  An "all" of ones is one.

  A reduction of 1-bit words by "and", from an initial value that is 1 everywhere, over an operand that is 1 everywhere,
  is 1 at every result index: the reduction at an index is a left fold of "and" over the operand entries that reduce into
  it, and a fold of "and" that starts at 1 and meets only 1s stays 1. (The library has the other direction: a reduction
  that came out 1 met only 1s.)
-/
import Idealize.ShloMosaic.Lib.ReduceAll

namespace Cert.LibAllOnes

open Idealize.ShloMosaic

/-- A left fold by "and" from 1 over entries that are all 1 is 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    show l.foldl (fun r n => IntOp.andi r (f n)) (IntOp.andi init (f a)) = 1#1
    exact foldl_andi_ones f l _ (IntOp.andi_eq_one.2 ⟨h, hl a List.mem_cons_self⟩)
      (fun n hn => hl n (List.mem_cons_of_mem _ hn))

/-- A reduction by "and", from ones, of an operand of ones is 1 at every index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun n _ => hx n)

end Cert.LibAllOnes
-- ==== Proof.TakeInRange.lean ====
/-
  With every source index inside the node array, the kernel's guarded take is the plain gather.

  The kernel takes rows with a guard: it counts a negative index from the end, tests the result against [0, 99999], and
  puts the not-a-number word in the rows that fail the test. When every source index s satisfies 0 ≤ s < 100000 (as signed
  integers) no index is negative, so the counted index is s itself; it passes both tests; the per-edge "all" over the one
  index of the edge is 1; and the select keeps the gathered row everywhere.
-/
import proofs.«417610_j16449724744296_1_alg».proof.Proof.KernelHost
import proofs.«417610_j16449724744296_1_alg».proof.Proof.LibAllOnes
import Idealize.ShloMosaic.Lib.ValueIdx
import Idealize.ShloMosaic.Lib.Pipeline.Value

set_option maxRecDepth 16384

noncomputable section

namespace Cert.TakeInRange

open Cert.KernelIdeal Cert.KernelIdeal.Gen Cert.KernelHost Idealize.ShloMosaic Idealize.ShloMosaic.TcCoe

/-- The index the gather takes for an edge is the edge's source index, which is in range. -/
theorem srcIdx_in_range (a2 : IVec S800000 32) (hr : ∀ e : S800000.Idx, 0 ≤ (a2 e).toInt ∧ (a2 e).toInt < 100000)
    (e' : S800000x1.Idx) : 0 ≤ (srcIdx a2 e').toInt ∧ (srcIdx a2 e').toInt < 100000 := by
  obtain ⟨k, hk⟩ : ∃ k : S800000.Idx, srcIdx a2 e'
      = Scalar.select (IntOp.cmpi .slt (a2 k) 0#32)
          (addi a2 (broadcastInDim S800000 ![] bcast_S_S800000 (constantI S_ 32 100000#32)) k) (a2 k) := ⟨_, rfl⟩
  have z : (0#32 : BitVec 32).toInt = 0 := by decide
  have hc : IntOp.cmpi .slt (a2 k) 0#32 = 0#1 :=
    ValueIdx.eq_zero_of_ne_one (fun h1 => by have h2 := IntOp.cmpi_slt.1 h1; have h3 := (hr k).1; omega)
  rw [hk, hc, ValueIdx.select_zero]
  exact hr k

/-- Every edge passes the range test. -/
theorem inRange_one (a2 : IVec S800000 32) (hr : ∀ e : S800000.Idx, 0 ≤ (a2 e).toInt ∧ (a2 e).toInt < 100000)
    (k : S800000.Idx) : inRange a2 k = 1#1 := by
  unfold inRange maskOf
  refine Cert.LibAllOnes.reduce_andi_ones _ _ _ _ (fun _ => rfl) (fun e' => ?_) k
  obtain ⟨h0, h1⟩ := srcIdx_in_range a2 hr e'
  have z : (0#32 : BitVec 32).toInt = 0 := by decide
  have w : (99999#32 : BitVec 32).toInt = 99999 := by decide
  show IntOp.andi (IntOp.cmpi .sge (srcIdx a2 e') 0#32) (IntOp.cmpi .sle (srcIdx a2 e') 99999#32) = 1#1
  exact IntOp.andi_eq_one.2 ⟨IntOp.cmpi_sge.2 (by omega), IntOp.cmpi_sle.2 (by omega)⟩

/-- THE GUARDED TAKE IS THE GATHER when every source index is in range. -/
theorem takeRows_eq_gather (nn : FVec Ideal S100000x64 .f32) (a2 : IVec S800000 32)
    (hr : ∀ e : S800000.Idx, 0 ≤ (a2 e).toInt ∧ (a2 e).toInt < 100000) :
    takeRows nn a2 = Host.gather gather_S100000x64_S800000x1_S800000x64_1_0_n_n_0_1_164 nn (srcIdx a2) := by
  unfold takeRows
  have hM : ∀ k : S800000.Idx, inRange a2 k = 1#1 := inRange_one a2 hr
  generalize inRange a2 = M at hM
  funext i
  show Scalar.select (broadcastInDim S800000x64 ![0] bcast_S800000_S800000x64_0 M i)
      (Host.gather gather_S100000x64_S800000x1_S800000x64_1_0_n_n_0_1_164 nn (srcIdx a2) i) _ = _
  rw [broadcastInDim_apply ![0] bcast_S800000_S800000x64_0 M i (ValueIdx.ix1 (i 0)) (fun a => match a with
      | ⟨0, _⟩ => by show (i 0).val = if (800000 : Nat) = 1 then 0 else (i 0).val; rw [if_neg (by decide)]),
    hM, ValueIdx.select_one]

end Cert.TakeInRange

end
-- ==== Proof.RefLib.lean ====
/-
  The reference's three building blocks, read at an index on the extended reals.

  A host matrix product contracting the left operand's axis 1 against the right operand's axis 0 is Spec.lin; a 1 × 64 row
  broadcast along axis 0 reads the row at the column; and the reference's shifted softplus, which it spells as nineteen
  whole-array operations with scalar constants broadcast to the array's shape, is Spec.ssp at every entry. The last differs
  from Spec.ssp in two spellings only: the test d ≠ d is written with the unordered predicate (the same test on a linear
  order), and −|d| is written as a negation where Spec.ssp has 0 − |d|.
-/
import Idealize.ShloMosaic.PureOps.Ideal.Laws
import Idealize.ShloMosaic.Lib.ValueIdx
import Idealize.ShloMosaic.Lib.Pipeline.Value
import proofs.«417610_j16449724744296_1_alg».proof.Proof.Spec

noncomputable section

namespace Cert.RefLib

open Idealize.ShloMosaic Idealize.ShloMosaic.ValueIdx

/-! ## The host's matrix product -/

/-- The host's dot_general over one contracted axis (left axis 1 against right axis 0, the four facts l0, l1, r0, r1 about
    the operand indices) is the sum over Fin K of the products: Spec.lin. -/
theorem dotGeneral_lin {M K N : Nat}
    (d : DotDims ⟨2, ![M, K]⟩ ⟨2, ![K, N]⟩ ⟨2, ![M, N]⟩) (hr : d.contr.rank = 1) (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (prec : Option ContractPrecision) (l : FVec Ideal ⟨2, ![M, K]⟩ .f32) (r : FVec Ideal ⟨2, ![K, N]⟩ .f32) :
    Host.dotGeneral d prec l r = Spec.lin l r := by
  funext i
  show FloatOps.dotGeneral d prec .single l r i = ∑ k : Fin K, l (ix2 (i 0) k) * r (ix2 k (i 1))
  rw [Ideal.dotGeneral_apply, ← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  rw [el, er]
  rfl

/-! ## A bias row broadcast to every row -/

/-- A 1 × 64 row broadcast to R × 64 along axis 0 reads, at (p, q), the row at (0, q). -/
theorem rowBroadcast_apply {R : Nat} {α : Type}
    (hb : (⟨2, ![1, 64]⟩ : Shape).BroadcastsInDim ⟨2, ![R, 64]⟩ (![0, 1] : Fin 2 → Fin (⟨2, ![R, 64]⟩ : Shape).rank))
    (v : (⟨2, ![1, 64]⟩ : Shape).Idx → α) (i : (⟨2, ![R, 64]⟩ : Shape).Idx) :
    broadcastInDim ⟨2, ![R, 64]⟩ ![0, 1] hb v i = v (ix2 0 (i 1)) :=
  broadcastInDim_apply _ hb v i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The layer x · wt + b as the reference spells it: the product, plus the bias row broadcast to every row. -/
theorem dense_eq {R K : Nat}
    (d : DotDims ⟨2, ![R, K]⟩ ⟨2, ![K, 64]⟩ ⟨2, ![R, 64]⟩) (hr : d.contr.rank = 1) (hs : d.contr.size ⟨0, by omega⟩ = K)
    (l0 : ∀ (i : (⟨2, ![R, 64]⟩ : Shape).Idx) (q : d.contr.Idx), (d.lhsIdx i q 0).val = (i 0).val)
    (l1 : ∀ (i : (⟨2, ![R, 64]⟩ : Shape).Idx) (q : d.contr.Idx), (d.lhsIdx i q 1).val = (q ⟨0, by omega⟩).val)
    (r0 : ∀ (i : (⟨2, ![R, 64]⟩ : Shape).Idx) (q : d.contr.Idx), (d.rhsIdx i q 0).val = (q ⟨0, by omega⟩).val)
    (r1 : ∀ (i : (⟨2, ![R, 64]⟩ : Shape).Idx) (q : d.contr.Idx), (d.rhsIdx i q 1).val = (i 1).val)
    (hb : (⟨2, ![1, 64]⟩ : Shape).BroadcastsInDim ⟨2, ![R, 64]⟩ (![0, 1] : Fin 2 → Fin (⟨2, ![R, 64]⟩ : Shape).rank))
    (prec : Option ContractPrecision) (x : FVec Ideal ⟨2, ![R, K]⟩ .f32) (wt : FVec Ideal ⟨2, ![K, 64]⟩ .f32)
    (b : FVec Ideal ⟨2, ![1, 64]⟩ .f32) :
    addf (Host.dotGeneral d prec x wt) (broadcastInDim ⟨2, ![R, 64]⟩ ![0, 1] hb b) = Spec.dense x wt b := by
  funext i
  show Host.dotGeneral d prec x wt i + broadcastInDim ⟨2, ![R, 64]⟩ ![0, 1] hb b i = Spec.lin x wt i + b (ix2 0 (i 1))
  rw [dotGeneral_lin d hr hs l0 l1 r0 r1, rowBroadcast_apply]

/-! ## The shifted softplus -/

/-- The reference's shifted softplus of a whole array x, operation by operation: with h = ½·x and d = 0 − h,
    select(h > 14, x, 2 · select(d ≠ d, 0 + h, max(0, h) + log1p(exp(−|d|)))), every constant a scalar broadcast to
    the array's shape. -/
def sspArr {S : Shape} (hb : (⟨0, ![]⟩ : Shape).BroadcastsInDim S (![] : Fin 0 → Fin S.rank)) (x : FVec Ideal S .f32) :
    FVec Ideal S .f32 :=
  select
    (cmpf .ogt (mulf (broadcastInDim S ![] hb (constant ⟨0, ![]⟩ .f32 0x3F000000#32)) x)
      (broadcastInDim S ![] hb (constant ⟨0, ![]⟩ .f32 0x41600000#32)))
    x
    (mulf (broadcastInDim S ![] hb (constant ⟨0, ![]⟩ .f32 0x40000000#32))
      (select
        (cmpf .une
          (subf (broadcastInDim S ![] hb (constant ⟨0, ![]⟩ .f32 0x00000000#32))
            (mulf (broadcastInDim S ![] hb (constant ⟨0, ![]⟩ .f32 0x3F000000#32)) x))
          (subf (broadcastInDim S ![] hb (constant ⟨0, ![]⟩ .f32 0x00000000#32))
            (mulf (broadcastInDim S ![] hb (constant ⟨0, ![]⟩ .f32 0x3F000000#32)) x)))
        (addf (broadcastInDim S ![] hb (constant ⟨0, ![]⟩ .f32 0x00000000#32))
          (mulf (broadcastInDim S ![] hb (constant ⟨0, ![]⟩ .f32 0x3F000000#32)) x))
        (addf
          (maximumf (broadcastInDim S ![] hb (constant ⟨0, ![]⟩ .f32 0x00000000#32))
            (mulf (broadcastInDim S ![] hb (constant ⟨0, ![]⟩ .f32 0x3F000000#32)) x))
          (Host.log1p (Host.exp (Host.negf (Host.absf
            (subf (broadcastInDim S ![] hb (constant ⟨0, ![]⟩ .f32 0x00000000#32))
              (mulf (broadcastInDim S ![] hb (constant ⟨0, ![]⟩ .f32 0x3F000000#32)) x)))))))))

/-- On the extended reals a negation is a subtraction from the zero word's value. -/
theorem neg_eq_zero_sub (a : EReal) : -a = Ideal.ofBits .f32 0x00000000#32 - a := by
  rw [Ideal.ofBits_zero_f32, zero_sub]

/-- The reference's shifted softplus at an entry is Spec.ssp of the entry. -/
theorem sspArr_apply {S : Shape} (hb : (⟨0, ![]⟩ : Shape).BroadcastsInDim S (![] : Fin 0 → Fin S.rank))
    (x : FVec Ideal S .f32) (i : S.Idx) : sspArr hb x i = Spec.ssp (x i) := by
  unfold Spec.ssp
  rw [← neg_eq_zero_sub (FloatOps.absf (F := Ideal) (φ := .f32)
    (Ideal.ofBits .f32 0x00000000#32 - Ideal.ofBits .f32 0x3F000000#32 * x i))]
  rfl

theorem sspArr_eq {S : Shape} (hb : (⟨0, ![]⟩ : Shape).BroadcastsInDim S (![] : Fin 0 → Fin S.rank))
    (x : FVec Ideal S .f32) : sspArr hb x = fun i => Spec.ssp (x i) :=
  funext (sspArr_apply hb x)

end Cert.RefLib

end
-- ==== Proof.RefValue.lean ====
/-
  The reference's result is the layer of Spec.lean.

  The reference computes, on whole arrays: newNode = node · W1ᵀ; the edge filter filt = ssp(rbf · Wc1ᵀ + bc1) · Wc2ᵀ + bc2;
  the messages newNode[src] * filt summed at dst (cf); and node + (ssp(cf · W2ᵀ + b2) · W3ᵀ + b3). Its two kinds of matrix
  product are sums over the contracted axis; everything else acts entry by entry, so the result term, read at an index,
  is Spec.nodeMlp of the node features, of cf, and of the transposed weights and bias rows as the reference spells them.
-/
import proofs.«417610_j16449724744296_1_alg».proof.Proof.Gen.ReferenceIdeal.Read
import proofs.«417610_j16449724744296_1_alg».proof.Proof.Spec
import proofs.«417610_j16449724744296_1_alg».proof.Proof.LibMatmul
import proofs.«417610_j16449724744296_1_alg».proof.Proof.RefLib

noncomputable section

namespace Cert.RefValue

open Cert.ReferenceIdeal Cert.ReferenceIdeal.Gen Idealize.ShloMosaic Idealize.ShloMosaic.ValueIdx

/-- A 64 × 64 weight, transposed (as the reference's transpose writes it). -/
abbrev wT64 (w : FVec Ideal S64x64 .f32) : FVec Ideal S64x64 .f32 := transpose S64x64 [1, 0] w transposes_S64x64_S64x64_1_0
/-- The 64 × 128 weight of the filter's first layer, transposed to 128 × 64. -/
abbrev wT128 (w : FVec Ideal S64x128 .f32) : FVec Ideal S128x64 .f32 := transpose S128x64 [1, 0] w transposes_S64x128_S128x64_1_0
/-- A bias vector as a 1 × 64 row. -/
abbrev brow (b : FVec Ideal S64 .f32) : FVec Ideal S1x64 .f32 := broadcastInDim S1x64 ![1] bcast_S64_S1x64_1 b

/-- The transformed node features, node · W1ᵀ. -/
def newNode (a0 : FVec Ideal S100000x64 .f32) (a4 : FVec Ideal S64x64 .f32) : FVec Ideal S100000x64 .f32 :=
  Spec.lin a0 (wT64 a4)

/-- The edge filter. -/
def filt (a1 : FVec Ideal S800000x128 .f32) (a5 : FVec Ideal S64x128 .f32) (a6 : FVec Ideal S64 .f32)
    (a7 : FVec Ideal S64x64 .f32) (a8 : FVec Ideal S64 .f32) : FVec Ideal S800000x64 .f32 :=
  Spec.edgeMlp a1 (wT128 a5) (brow a6) (wT64 a7) (brow a8)

/-- The source indices as the gather takes them: a negative index counted from the end, one index per row. -/
def srcIdx (a2 : IVec S800000 32) : IVec S800000x1 32 :=
  broadcastInDim S800000x1 ![0] bcast_S800000_S800000x1_0
    (select (cmpi .slt a2 (broadcastInDim S800000 ![] bcast_S_S800000 (constantI S_ 32 0#32)))
      (addi a2 (broadcastInDim S800000 ![] bcast_S_S800000 (constantI S_ 32 100000#32))) a2)

/-- The messages summed at their destinations, from the transformed features nn and the filter h. -/
def cfOf (nn : FVec Ideal S100000x64 .f32) (h : FVec Ideal S800000x64 .f32) (a2 a3 : IVec S800000 32) : FVec Ideal S100000x64 .f32 :=
  Host.scatterAdd scatter_S100000x64_S800000x1_S800000x64_1_0_0_1
    (broadcastInDim S100000x64 ![] bcast_S_S100000x64 (constant S_ .f32 0x00000000#32))
    (broadcastInDim S800000x1 ![0] bcast_S800000_S800000x1_0 a3)
    (mulf (Host.gather gather_S100000x64_S800000x1_S800000x64_1_0_n_n_0_1_164 nn (srcIdx a2)) h)

/-! ## The reference's layers

The three shapes of matrix product the reference takes, each followed by a bias row broadcast to every row, are
Spec.dense; the dimension numbers' four index facts are the generated ones. -/

/-- 100000 × 64 by 64 × 64, plus a bias row. -/
theorem dense_node (x : FVec Ideal S100000x64 .f32) (wt : FVec Ideal S64x64 .f32) (b : FVec Ideal S1x64 .f32) :
    addf (Host.dotGeneral dot_S100000x64_S64x64_S100000x64_1_0_0_1_n_n none x wt)
        (broadcastInDim S100000x64 ![0, 1] Gen.bcast_S1x64_S100000x64_0_1 b)
      = Spec.dense x wt b :=
  RefLib.dense_eq dot_S100000x64_S64x64_S100000x64_1_0_0_1_n_n rfl rfl Read.lhs_main_v1_0 Read.lhs_main_v1_1
    Read.rhs_main_v1_0 Read.rhs_main_v1_1 Gen.bcast_S1x64_S100000x64_0_1 none x wt b

/-- 800000 × 128 by 128 × 64, plus a bias row. -/
theorem dense_edge1 (x : FVec Ideal S800000x128 .f32) (wt : FVec Ideal S128x64 .f32) (b : FVec Ideal S1x64 .f32) :
    addf (Host.dotGeneral dot_S800000x128_S128x64_S800000x64_1_0_0_1_n_n none x wt)
        (broadcastInDim S800000x64 ![0, 1] Gen.bcast_S1x64_S800000x64_0_1 b)
      = Spec.dense x wt b :=
  RefLib.dense_eq dot_S800000x128_S128x64_S800000x64_1_0_0_1_n_n rfl rfl Read.lhs_main_v3_0 Read.lhs_main_v3_1
    Read.rhs_main_v3_0 Read.rhs_main_v3_1 Gen.bcast_S1x64_S800000x64_0_1 none x wt b

/-- 800000 × 64 by 64 × 64, plus a bias row. -/
theorem dense_edge2 (x : FVec Ideal S800000x64 .f32) (wt : FVec Ideal S64x64 .f32) (b : FVec Ideal S1x64 .f32) :
    addf (Host.dotGeneral dot_S800000x64_S64x64_S800000x64_1_0_0_1_n_n none x wt)
        (broadcastInDim S800000x64 ![0, 1] Gen.bcast_S1x64_S800000x64_0_1 b)
      = Spec.dense x wt b :=
  RefLib.dense_eq dot_S800000x64_S64x64_S800000x64_1_0_0_1_n_n rfl rfl Read.lhs_main_v30_0 Read.lhs_main_v30_1
    Read.rhs_main_v30_0 Read.rhs_main_v30_1 Gen.bcast_S1x64_S800000x64_0_1 none x wt b

/-- The reference's first product is the transformed node features. -/
theorem newNode_eq (a0 : FVec Ideal S100000x64 .f32) (a4 : FVec Ideal S64x64 .f32) :
    Read.val_main_v1 (F := Ideal) a0 a4 = newNode a0 a4 :=
  RefLib.dotGeneral_lin dot_S100000x64_S64x64_S100000x64_1_0_0_1_n_n rfl rfl Read.lhs_main_v1_0 Read.lhs_main_v1_1
    Read.rhs_main_v1_0 Read.rhs_main_v1_1 none a0 (wT64 a4)

/-- The reference's edge perceptron is the edge filter: two layers with the shifted softplus between them. -/
theorem filt_eq (a1 : FVec Ideal S800000x128 .f32) (a5 : FVec Ideal S64x128 .f32) (a6 : FVec Ideal S64 .f32)
    (a7 : FVec Ideal S64x64 .f32) (a8 : FVec Ideal S64 .f32) :
    Read.val_main_v33 (F := Ideal) a1 a5 a6 a7 a8 = filt a1 a5 a6 a7 a8 := by
  show addf (Host.dotGeneral dot_S800000x64_S64x64_S800000x64_1_0_0_1_n_n none
          (RefLib.sspArr Gen.bcast_S_S800000x64
            (addf (Host.dotGeneral dot_S800000x128_S128x64_S800000x64_1_0_0_1_n_n none a1 (wT128 a5))
              (broadcastInDim S800000x64 ![0, 1] Gen.bcast_S1x64_S800000x64_0_1 (brow a6))))
          (wT64 a7))
        (broadcastInDim S800000x64 ![0, 1] Gen.bcast_S1x64_S800000x64_0_1 (brow a8))
      = Spec.edgeMlp a1 (wT128 a5) (brow a6) (wT64 a7) (brow a8)
  rw [dense_edge1, RefLib.sspArr_eq, dense_edge2]
  rfl

/-- The reference's gather, product and scatter-add, taken whole, over the two layers above. -/
theorem cf_eq (a0 : FVec Ideal S100000x64 .f32) (a1 : FVec Ideal S800000x128 .f32) (a2 a3 : IVec S800000 32)
    (a4 : FVec Ideal S64x64 .f32) (a5 : FVec Ideal S64x128 .f32) (a6 : FVec Ideal S64 .f32)
    (a7 : FVec Ideal S64x64 .f32) (a8 : FVec Ideal S64 .f32) :
    Read.val_main_v44 (F := Ideal) a0 a1 a2 a3 a4 a5 a6 a7 a8
      = cfOf (newNode a0 a4) (filt a1 a5 a6 a7 a8) a2 a3 := by
  show Host.scatterAdd scatter_S100000x64_S800000x1_S800000x64_1_0_0_1
        (broadcastInDim S100000x64 ![] Gen.bcast_S_S100000x64 (constant S_ .f32 0x00000000#32))
        (broadcastInDim S800000x1 ![0] Gen.bcast_S800000_S800000x1_0 a3)
        (mulf (Host.gather gather_S100000x64_S800000x1_S800000x64_1_0_n_n_0_1_164 (Read.val_main_v1 (F := Ideal) a0 a4) (srcIdx a2))
          (Read.val_main_v33 (F := Ideal) a1 a5 a6 a7 a8))
      = cfOf (newNode a0 a4) (filt a1 a5 a6 a7 a8) a2 a3
  rw [newNode_eq, filt_eq]
  rfl

/-- The reference's last stage, over the summed messages cf: node + (ssp(cf · W2ᵀ + b2) · W3ᵀ + b3). -/
theorem top_eq (a0 cf : FVec Ideal S100000x64 .f32) (a9 : FVec Ideal S64x64 .f32) (a10 : FVec Ideal S64 .f32)
    (a11 : FVec Ideal S64x64 .f32) (a12 : FVec Ideal S64 .f32) :
    addf a0
        (addf (Host.dotGeneral dot_S100000x64_S64x64_S100000x64_1_0_0_1_n_n none
            (RefLib.sspArr Gen.bcast_S_S100000x64
              (addf (Host.dotGeneral dot_S100000x64_S64x64_S100000x64_1_0_0_1_n_n none cf (wT64 a9))
                (broadcastInDim S100000x64 ![0, 1] Gen.bcast_S1x64_S100000x64_0_1 (brow a10))))
            (wT64 a11))
          (broadcastInDim S100000x64 ![0, 1] Gen.bcast_S1x64_S100000x64_0_1 (brow a12)))
      = Spec.nodeMlp a0 cf (wT64 a9) (brow a10) (wT64 a11) (brow a12) := by
  rw [dense_node, RefLib.sspArr_eq, dense_node]
  rfl

/-- The reference's result as a function of its thirteen arguments. -/
theorem val_eq (a0 : FVec Ideal S100000x64 .f32) (a1 : FVec Ideal S800000x128 .f32) (a2 a3 : IVec S800000 32)
    (a4 : FVec Ideal S64x64 .f32) (a5 : FVec Ideal S64x128 .f32) (a6 : FVec Ideal S64 .f32)
    (a7 : FVec Ideal S64x64 .f32) (a8 : FVec Ideal S64 .f32) (a9 : FVec Ideal S64x64 .f32) (a10 : FVec Ideal S64 .f32)
    (a11 : FVec Ideal S64x64 .f32) (a12 : FVec Ideal S64 .f32) :
    Read.val_main_v175 (F := Ideal) a0 a1 a2 a3 a4 a5 a6 a7 a8 a9 a10 a11 a12
      = Spec.nodeMlp a0 (cfOf (newNode a0 a4) (filt a1 a5 a6 a7 a8) a2 a3)
          (wT64 a9) (brow a10) (wT64 a11) (brow a12) := by
  rw [← cf_eq, ← top_eq]
  rfl

/-- THE REFERENCE'S RESULT, as the layer of the specification. -/
theorem result_eq (m : (ℓ : Loc nD τ sig) → Buf (Elt Ideal) ℓ) (c : Dev nD) :
    Value.res_main_v175 (F := Ideal) m c
      = Spec.nodeMlp (m ((c.tc : Thread nD τ).loc main_arg0))
          (cfOf (newNode (m ((c.tc : Thread nD τ).loc main_arg0)) (m ((c.tc : Thread nD τ).loc main_arg4)))
            (filt (m ((c.tc : Thread nD τ).loc main_arg1)) (m ((c.tc : Thread nD τ).loc main_arg5)) (m ((c.tc : Thread nD τ).loc main_arg6))
              (m ((c.tc : Thread nD τ).loc main_arg7)) (m ((c.tc : Thread nD τ).loc main_arg8)))
            (m ((c.tc : Thread nD τ).loc main_arg2)) (m ((c.tc : Thread nD τ).loc main_arg3)))
          (wT64 (m ((c.tc : Thread nD τ).loc main_arg9))) (brow (m ((c.tc : Thread nD τ).loc main_arg10)))
          (wT64 (m ((c.tc : Thread nD τ).loc main_arg11))) (brow (m ((c.tc : Thread nD τ).loc main_arg12))) := by
  exact (Read.val_main_v175_eq m c).trans (val_eq _ _ _ _ _ _ _ _ _ _ _ _ _)

end Cert.RefValue

end
-- ==== Proof.Bridge.lean ====
/-
  The kernel's result and the reference's result are one function of the thirteen argument arrays.

  Both are the node update (Spec.nodeMlp) of the node features, of the summed messages and of the prepared weights and bias
  rows. They differ in two spellings only. A bias vector becomes a 1 × 64 row by a reshape in the kernel program and by a
  broadcast in the reference: both read the vector at the entry's column. And the kernel takes the rows of the transformed
  features with a guard where the reference gathers them: with every source index in range the guarded take is the gather.
  Everything else (the transposes, the gather's and the scatter's dimension numbers, the zeros) is the same term.
-/
import proofs.«417610_j16449724744296_1_alg».proof.Proof.KernelValue
import proofs.«417610_j16449724744296_1_alg».proof.Proof.TakeInRange
import proofs.«417610_j16449724744296_1_alg».proof.Proof.RefValue
import Idealize.ShloMosaic.Lib.Pipeline.Value

set_option maxRecDepth 16384

noncomputable section

namespace Cert.Bridge

open Idealize.ShloMosaic

/-- A bias vector as a 1 × 64 row: the kernel program's reshape and the reference's broadcast are one array. -/
theorem brow_eq (b : FVec Ideal Cert.KernelIdeal.S64 .f32) : Cert.KernelHost.brow b = Cert.RefValue.brow b := by
  funext i
  have hl : Cert.KernelHost.brow b i = b (fun a => i a.succ) := shapeCast_addUnit_apply ![64] b _ i
  have hr : Cert.RefValue.brow b i = b (fun a => i a.succ) :=
    broadcastInDim_apply ![1] _ b i (fun a => i a.succ) (fun a => match a with
      | ⟨0, _⟩ => by show (i 1).val = if (64 : Nat) = 1 then 0 else (i 1).val; rw [if_neg (by decide)])
  rw [hl, hr]

/-- THE TWO RESULTS AGREE when every source index is in range. -/
theorem kv_eq (a0 : FVec Ideal Cert.KernelIdeal.S100000x64 .f32) (a1 : FVec Ideal Cert.KernelIdeal.S800000x128 .f32)
    (a2 a3 : IVec Cert.KernelIdeal.S800000 32) (a4 : FVec Ideal Cert.KernelIdeal.S64x64 .f32)
    (a5 : FVec Ideal Cert.KernelIdeal.S64x128 .f32) (a6 : FVec Ideal Cert.KernelIdeal.S64 .f32)
    (a7 : FVec Ideal Cert.KernelIdeal.S64x64 .f32) (a8 : FVec Ideal Cert.KernelIdeal.S64 .f32)
    (a9 : FVec Ideal Cert.KernelIdeal.S64x64 .f32) (a10 : FVec Ideal Cert.KernelIdeal.S64 .f32)
    (a11 : FVec Ideal Cert.KernelIdeal.S64x64 .f32) (a12 : FVec Ideal Cert.KernelIdeal.S64 .f32)
    (hr : ∀ e : Cert.KernelIdeal.S800000.Idx, 0 ≤ (a2 e).toInt ∧ (a2 e).toInt < 100000) :
    Cert.KernelValue.kv a0 a1 a2 a3 a4 a5 a6 a7 a8 a9 a10 a11 a12
      = Spec.nodeMlp a0
          (Cert.RefValue.cfOf (Cert.RefValue.newNode a0 a4) (Cert.RefValue.filt a1 a5 a6 a7 a8) a2 a3)
          (Cert.RefValue.wT64 a9) (Cert.RefValue.brow a10) (Cert.RefValue.wT64 a11) (Cert.RefValue.brow a12) := by
  unfold Cert.KernelValue.kv
  rw [Cert.TakeInRange.takeRows_eq_gather _ _ hr, brow_eq a6, brow_eq a8, brow_eq a10, brow_eq a12]
  rfl

end Cert.Bridge

end
-- ==== Proof.SrcRange.lean ====
/-
  The precondition puts every source index inside the node array.

  Besides the finiteness of the float inputs, the precondition says that every entry of src is at least 0 and less than
  100000 (signed 32-bit words). It is printed as a chain of conjunctions of "all" reductions that comes out 1; the last two
  conjuncts are the reductions of the word compares src ≥ 0 and src < 100000 over all 800000 entries. A conjunction that
  is 1 has both sides 1, and an "all" that is 1 has every entry 1, so every entry of src, read as a signed integer, lies in
  [0, 100000).
-/
import proofs.«417610_j16449724744296_1_alg».proof.Pre_finite_inputs
import Idealize.ShloMosaic.PureOps.Ideal
import Idealize.ShloMosaic.Lib.ReduceAll
import Idealize.ShloMosaic.Lib.ValueIdx

noncomputable section

namespace Cert.SrcRange

open Idealize.ShloMosaic Cert.Pre_finite_inputs

/-- The empty shape has one index. -/
instance : Subsingleton S_.Idx := ⟨fun a b => funext fun d => d.elim0⟩

/-- Every source index is in range, as signed integers. -/
theorem src_in_range [Cert.Pre_finite_inputs.Facts]
    (a0 : FVec Ideal S100000x64 .f32) (a1 : FVec Ideal S800000x128 .f32) (a2 a3 : IVec S800000 32)
    (a4 : FVec Ideal S64x64 .f32) (a5 : FVec Ideal S64x128 .f32) (a6 : FVec Ideal S64 .f32) (a7 : FVec Ideal S64x64 .f32)
    (a8 : FVec Ideal S64 .f32) (a9 : FVec Ideal S64x64 .f32) (a10 : FVec Ideal S64 .f32) (a11 : FVec Ideal S64x64 .f32)
    (a12 : FVec Ideal S64 .f32)
    (h : fn (F := Ideal) a0 a1 a2 a3 a4 a5 a6 a7 a8 a9 a10 a11 a12 = fun _ => 1#1) (e : S800000.Idx) :
    0 ≤ (a2 e).toInt ∧ (a2 e).toInt < 100000 := by
  have h0 : fn (F := Ideal) a0 a1 a2 a3 a4 a5 a6 a7 a8 a9 a10 a11 a12 ValueIdx.ix0 = 1#1 := congrFun h _
  unfold fn fn_part1 fn_part2 fn_part3 at h0
  dsimp only at h0
  obtain ⟨h57, h60⟩ := IntOp.andi_eq_one.1 h0
  obtain ⟨-, h56⟩ := IntOp.andi_eq_one.1 h57
  have hge : IntOp.cmpi .sge (a2 e) 0#32 = 1#1 := Host.reduce_andi_all _ _ _ _ _ h56 e
  have hlt : IntOp.cmpi .slt (a2 e) 100000#32 = 1#1 := Host.reduce_andi_all _ _ _ _ _ h60 e
  have g := IntOp.cmpi_sge.1 hge
  have l := IntOp.cmpi_slt.1 hlt
  have z0 : (0#32 : BitVec 32).toInt = 0 := by decide
  have z1 : (100000#32 : BitVec 32).toInt = 100000 := by decide
  rw [z0] at g
  rw [z1] at l
  exact ⟨g, l⟩

end Cert.SrcRange

end
-- ==== Proof.lean ====
/-
  The certificate of a continuous-filter convolution layer on a graph (100000 nodes, 800000 edges, width 64): a kernel
  program of three pallas_calls with host operations between them, against a plain array reference.

  The kernel transforms the node features (node · W1ᵀ, call 1), computes an edge filter from 128 radial-basis values per
  edge by a two-layer perceptron with a shifted softplus (call 2), takes the transformed source rows, multiplies them by the
  filter and sums the products at the destinations (host operations), and updates the nodes by a second perceptron with a
  residual (call 3). The reference computes the same on whole arrays. On the extended reals a change of float format is the
  identity and each matrix product is the plain sum over the contracted axis, so each call's output array is the same
  function of the whole arrays that the reference applies, rows computed block by block. The one difference is how an
  out-of-range source index is treated (the kernel fills the row, the reference clamps the index), which the precondition
  excludes: every source index lies in [0, 100000).

  The three frames are the generated ones (the reference's from its generated run); preserves is trivial (the ideal pass
  rewrote nothing); algebraic puts the kernel's run with its result named beside the reference's run, and the two results
  are one function of the arguments (Bridge).
-/
import proofs.«417610_j16449724744296_1_alg».proof.Defs
import proofs.«417610_j16449724744296_1_alg».proof.Proof.Gen.Kernel
import proofs.«417610_j16449724744296_1_alg».proof.Proof.Gen.Kernel.Skeleton
import proofs.«417610_j16449724744296_1_alg».proof.Proof.Gen.Kernel.Launch
import proofs.«417610_j16449724744296_1_alg».proof.Proof.Gen.Kernel.Points
import proofs.«417610_j16449724744296_1_alg».proof.Proof.Gen.Kernel.Frame
import proofs.«417610_j16449724744296_1_alg».proof.Proof.Gen.KernelIdeal
import proofs.«417610_j16449724744296_1_alg».proof.Proof.Gen.KernelIdeal.Skeleton
import proofs.«417610_j16449724744296_1_alg».proof.Proof.Gen.KernelIdeal.Launch
import proofs.«417610_j16449724744296_1_alg».proof.Proof.Gen.KernelIdeal.Points
import proofs.«417610_j16449724744296_1_alg».proof.Proof.Gen.KernelIdeal.Frame
import proofs.«417610_j16449724744296_1_alg».proof.Proof.Gen.ReferenceIdeal
import proofs.«417610_j16449724744296_1_alg».proof.Proof.Gen.ReferenceIdeal.Run
import proofs.«417610_j16449724744296_1_alg».proof.Proof.Gen.ReferenceIdeal.Read
import proofs.«417610_j16449724744296_1_alg».proof.Proof.Gen.Pre_finite_inputs
import proofs.«417610_j16449724744296_1_alg».proof.Proof.RunMain
import proofs.«417610_j16449724744296_1_alg».proof.Proof.Bridge
import proofs.«417610_j16449724744296_1_alg».proof.Proof.SrcRange
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run, and from memories that agree on the arguments their results are the same array: the kernel's
    result is kv of its arguments (the run with the result named, then the value chain), the reference's is the layer of
    the specification of its arguments, and under the precondition the two are one function. -/
theorem algebraic : Cert.algebraic_KernelIdeal_ReferenceIdeal := by
  intro m ρ m' ρ' hpre hagree
  refine ⟨fun c => Cert.KernelValue.kv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelValue.value m ρ c), (h c).2⟩) (Cert.KernelRun.run_main m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.RefValue.result_eq m' c, h0, h1, h2, h3, h4, h5, h6, h7, h8, h9, h10, h11, h12]
    exact (Cert.Bridge.kv_eq _ _ _ _ _ _ _ _ _ _ _ _ _
      (Cert.SrcRange.src_in_range _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
